-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x256 : Shape := ⟨4, ![16, 256, 256, 256]⟩
abbrev S16x256x256 : Shape := ⟨3, ![16, 256, 256]⟩
abbrev S16 : Shape := ⟨1, ![16]⟩
abbrev S_ : Shape := ⟨0, ![]⟩

class Facts : Prop where
  bcast_S_S16x256x256x256 : S_.BroadcastsInDim S16x256x256x256 (![] : Fin 0 → Fin S16x256x256x256.rank)
  reducesTo_S16x256x256x256_S_d0_1_2_3 : S16x256x256x256.ReducesTo [0, 1, 2, 3] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x256x256x256 .f32) (main_arg1 : FVec F S16x256x256 .f32) (main_arg2 : IVec S16 32) : IVec S_ 1 :=
  let main_v0 : FVec F S16x256x256x256 .f32 := Host.absf main_arg0
  let main_cst : FVec F S_ .f32 := constant S_ .f32 0x7F800000#32
  let main_v1 : FVec F S16x256x256x256 .f32 := broadcastInDim S16x256x256x256 ![] bcast_S_S16x256x256x256 main_cst
  let main_v2 : IVec S16x256x256x256 1 := cmpf .olt main_v0 main_v1
  let main_c : IVec S_ 1 := constantI S_ 1 1#1
  let main_v3 : IVec S_ 1 := (fun x v => Host.reduce IntOp.andi x v reducesTo_S16x256x256x256_S_d0_1_2_3 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_c_2 : IVec S_ 32 := constantI S_ 32 0#32
  let main_v9 : IVec S16 32 := broadcastInDim S16 ![] bcast_S_S16 main_c_2
  let main_v10 : IVec S16 1 := cmpi .sge main_arg2 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  let main_c_4 : IVec S_ 32 := constantI S_ 32 256#32
  let main_v13 : IVec S16 32 := broadcastInDim S16 ![] bcast_S_S16 main_c_4
  let main_v14 : IVec S16 1 := cmpi .slt main_arg2 main_v13
  let main_c_5 : IVec S_ 1 := constantI S_ 1 1#1
  let main_v15 : IVec S_ 1 := (fun x v => Host.reduce IntOp.andi x v reducesTo_S16_S_d0 h_S_) main_v14 main_c_5
  fn_part1 (F := F) main_v12 main_v15
-- ==== Kernel.lean ====
abbrev S16x256x256x256 : Shape := ⟨4, ![16, 256, 256, 256]⟩
abbrev S16x256x256 : Shape := ⟨3, ![16, 256, 256]⟩
abbrev S16 : Shape := ⟨1, ![16]⟩
abbrev S_ : Shape := ⟨0, ![]⟩
abbrev S16x8x128 : Shape := ⟨3, ![16, 8, 128]⟩
abbrev S1x64x256x128 : Shape := ⟨4, ![1, 64, 256, 128]⟩
abbrev S1 : Shape := ⟨1, ![1]⟩
abbrev S1x64x256 : Shape := ⟨3, ![1, 64, 256]⟩
abbrev S1x8x128 : Shape := ⟨3, ![1, 8, 128]⟩
abbrev S1x1x1x128 : Shape := ⟨4, ![1, 1, 1, 128]⟩
abbrev S1x64 : Shape := ⟨2, ![1, 64]⟩
abbrev S1x64x1 : Shape := ⟨3, ![1, 64, 1]⟩
abbrev S1x1 : Shape := ⟨2, ![1, 1]⟩
abbrev S1x1x1 : Shape := ⟨3, ![1, 1, 1]⟩

abbrev nBuf : Space → Nat
  | .hbm => 54
  | .vmem => 7
  | .smem => 2
  | _ => 0

abbrev bufTy : (tb : Table) → Fin (tcTables nBuf tb) → BufTy
  | .hbm, ⟨0, _⟩ => ⟨S16x256x256x256, .f32⟩
  | .hbm, ⟨1, _⟩ => ⟨S16x256x256, .f32⟩
  | .hbm, ⟨2, _⟩ => ⟨S16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S_, .i1⟩
  | .hbm, ⟨44, _⟩ => ⟨S16, .i1⟩
  | .hbm, ⟨45, _⟩ => ⟨S16, .i1⟩
  | .hbm, ⟨46, _⟩ => ⟨S16, .i1⟩
  | .hbm, ⟨47, _⟩ => ⟨S16, .i32⟩
  | .hbm, ⟨48, _⟩ => ⟨S16, .i32⟩
  | .hbm, ⟨49, _⟩ => ⟨S16x8x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x64x256x128, .f32⟩
  | .local _ .vmem, ⟨1, _⟩ => ⟨S1x64x256x128, .f32⟩
  | .local _ .vmem, ⟨2, _⟩ => ⟨S1x64x256, .f32⟩
  | .local _ .vmem, ⟨3, _⟩ => ⟨S1x64x256, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .smem, ⟨0, _⟩ => ⟨S16, .i32⟩
  | .local _ .smem, ⟨1, _⟩ => ⟨S16, .i32⟩
  | _, _ => ⟨S16x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_c_2 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v3 : Ref sig .tc := ⟨.hbm, 49, rfl⟩
abbrev main_cst : Ref sig .tc := ⟨.hbm, 50, rfl⟩
abbrev main_v4 : Ref sig .tc := ⟨.hbm, 51, rfl⟩
abbrev main_cst_3 : Ref sig .tc := ⟨.hbm, 52, rfl⟩
abbrev main_v5 : Ref sig .tc := ⟨.hbm, 53, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_16 : BitVec 32 := 0#32
  let v32 : BitVec 1 := Scalar.cmpi .ne v31 c0_i32_16
  v32

def cc0_transform_0 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![arg0.toNat, arg1.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16 : S_.BroadcastsInDim S16 (![] : Fin 0 → Fin S16.rank)
  numel1_S1 : S1.numel = 1
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S1x64x256x128_S1x64x256x128_0_0_0_0 : ∀ a, (![0, 0, 0, 0] : Fin 4 → Nat) a + S1x64x256x128.size a ≤ S1x64x256x128.size a
  h_S1x64x256x128 : 0 < S1x64x256x128.numel
  iota_S1x1x1x128_d3_w32 : S1x1x1x128.Iotas .tc 32 [3]
  natLt_1_32 : 1 < 32
  broadcasts_S1x1x1x128_S1x64x256x128 : S1x1x1x128.Broadcasts S1x64x256x128
  reduces_S1x64x256x128_S1x64x256 : S1x64x256x128.Reduces [3] S1x64x256
  inb_S1x64x256_S1x64x256_0_0_0 : ∀ a, (![0, 0, 0] : Fin 3 → Nat) a + S1x64x256.size a ≤ S1x64x256.size a
  h_S1x64x256 : 0 < S1x64x256.numel
  reduces_S1x64x256_S1x64 : S1x64x256.Reduces [2] S1x64
  shapeCasts_S1x64_S1x64x1 : S1x64.ShapeCasts S1x64x1
  reduces_S1x64x1_S1x1 : S1x64x1.Reduces [1] S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  reducesTo_S16x8x128_S_d0_1_2 : S16x8x128.ReducesTo [0, 1, 2] S_
  h_S_ : 0 < S_.numel
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S16x256x256.size a
  hwx0_1 : ∀ i : grid0.Coords, EltTy.bits .f32 = 32 ∨ (Rect.block (s := S16x256x256) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev spec0_0 : Pipeline.WinSpec sig grid0.rank :=
  Pipeline.WinSpec.ofSpec (Memref.whole main_arg0) S1x64x256x128.size reads0_0 false false 2 stage0_0 sem0_0 nbuf0_0 hstage0_0

abbrev spec0_1 : Pipeline.WinSpec sig grid0.rank :=
  Pipeline.WinSpec.ofSpec (Memref.whole main_arg1) S1x64x256.size reads0_1 false false 2 stage0_1 sem0_1 nbuf0_1 hstage0_1

abbrev spec0_2 : Pipeline.WinSpec sig grid0.rank :=
  Pipeline.WinSpec.ofSpec (Memref.whole main_v3) S1x8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x256x128.size a ≤ S16x256x256x256.size a), EltTy.bits .f32 = 32 ∨ (Rect.block (s := S16x256x256x256) S1x64x256x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x256x256x256 : Shape := ⟨4, ![16, 256, 256, 256]⟩
abbrev S16x256x256 : Shape := ⟨3, ![16, 256, 256]⟩
abbrev S16 : Shape := ⟨1, ![16]⟩
abbrev S16x1x1x1 : Shape := ⟨4, ![16, 1, 1, 1]⟩
abbrev S_ : Shape := ⟨0, ![]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x256x256x1 : Shape := ⟨4, ![16, 256, 256, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x256x256x256, .f32⟩
  | .hbm, ⟨1, _⟩ => ⟨S16x256x256, .f32⟩
  | .hbm, ⟨2, _⟩ => ⟨S16, .i32⟩
  | .hbm, ⟨3, _⟩ => ⟨S16x1x1x1, .i32⟩
  | .hbm, ⟨4, _⟩ => ⟨S_, .i32⟩
  | .hbm, ⟨5, _⟩ => ⟨S16x1x1x1, .i32⟩
  | .hbm, ⟨6, _⟩ => ⟨S16x1x1x1, .i1⟩
  | .hbm, ⟨7, _⟩ => ⟨S_, .i32⟩
  | .hbm, ⟨8, _⟩ => ⟨S16x1x1x1, .i32⟩
  | .hbm, ⟨9, _⟩ => ⟨S16x1x1x1, .i32⟩
  | .hbm, ⟨10, _⟩ => ⟨S16x1x1x1, .i32⟩
  | .hbm, ⟨11, _⟩ => ⟨S16x1x1, .i32⟩
  | .hbm, ⟨12, _⟩ => ⟨S1, .i32⟩
  | .hbm, ⟨13, _⟩ => ⟨S_, .i32⟩
  | .hbm, ⟨14, _⟩ => ⟨S16x1x1, .i32⟩
  | .hbm, ⟨15, _⟩ => ⟨S16x1x1, .i1⟩
  | .hbm, ⟨16, _⟩ => ⟨S1x1x1, .i32⟩
  | .hbm, ⟨17, _⟩ => ⟨S16x1x1, .i32⟩
  | .hbm, ⟨18, _⟩ => ⟨S16x1x1, .i1⟩
  | .hbm, ⟨19, _⟩ => ⟨S16x1x1, .i1⟩
  | .hbm, ⟨20, _⟩ => ⟨S_, .i1⟩
  | .hbm, ⟨21, _⟩ => ⟨S16x1, .i1⟩
  | .hbm, ⟨22, _⟩ => ⟨S16x256x256x1, .f32⟩
  | .hbm, ⟨23, _⟩ => ⟨S16x256x256x1, .i1⟩
  | .hbm, ⟨24, _⟩ => ⟨S_, .f32⟩
  | .hbm, ⟨25, _⟩ => ⟨S16x256x256x1, .f32⟩
  | .hbm, ⟨26, _⟩ => ⟨S16x256x256x1, .f32⟩
  | .hbm, ⟨27, _⟩ => ⟨S16x256x256, .f32⟩
  | .hbm, ⟨28, _⟩ => ⟨S16x256x256, .f32⟩
  | .hbm, ⟨29, _⟩ => ⟨S16x256x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  shapeCasts_S16_S16x1x1x1 : S16.ShapeCasts S16x1x1x1
  bcast_S_S16x1x1x1 : S_.BroadcastsInDim S16x1x1x1 (![] : Fin 0 → Fin S16x1x1x1.rank)
  shapeCasts_S16x1x1x1_S16x1x1 : S16x1x1x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  h_S_ : 0 < S_.numel
  bcast_S16x1_S16x256x256x1_0_3 : S16x1.BroadcastsInDim S16x256x256x1 (![0, 3] : Fin 2 → Fin S16x256x256x1.rank)
  bcast_S_S16x256x256x1 : S_.BroadcastsInDim S16x256x256x1 (![] : Fin 0 → Fin S16x256x256x1.rank)
  shapeCasts_S16x256x256x1_S16x256x256 : S16x256x256x1.ShapeCasts S16x256x256
  reducesTo_S16x256x256_S_d0_1_2 : S16x256x256.ReducesTo [0, 1, 2] S_
  gather_S16x256x256x256_S16x1x1_S16x256x256x1_12_3_0_0_3_2_12562561_wf : GatherDims.WF S16x256x256x256 S16x1x1 S16x256x256x1 [1, 2] [3] [0] [3] [0] 2 ![1, 256, 256, 1]

variable [Facts₀]

def gather_S16x256x256x256_S16x1x1_S16x256x256x1_12_3_0_0_3_2_12562561 : GatherDims S16x256x256x256 S16x1x1 S16x256x256x1 where
  offsetDims := [1, 2]
  collapsedSliceDims := [3]
  operandBatchingDims := [0]
  startIndicesBatchingDims := [0]
  startIndexMap := [3]
  indexVectorDim := 2
  sliceSizes := ![1, 256, 256, 1]
  wf := gather_S16x256x256x256_S16x1x1_S16x256x256x1_12_3_0_0_3_2_12562561_wf

class Facts : Prop extends Facts₀ where

variable [Facts]
-- ==== Proof.Spec.lean ====
/-
  The mathematics both programs compute, over the extended reals, with no program in sight.

  Inputs: a volume `rec[b, r, w, d]` (16 × 256 × 256 × 256), an image `inp[b, r, w]` (16 × 256 × 256) and one
  depth word per batch. The loss is the mean over (b, r, w) of the squared difference between the volume at the
  batch's selected depth and the image: `(∑ b r w, (rec[b, r, w, sel b] − inp[b, r, w])²) / 2²⁰`.

  The kernel reaches the same number in another arrangement: per batch it walks the rows in four strips of 64,
  sums each strip's squared differences, scales the strip sum by `2⁻¹⁰` and adds it to a running value that started
  at zero; it then writes that running value into all 8 × 128 = 2¹⁰ entries of the batch's output tile, and the
  host sums every entry of every tile. `accum` is the running value after the fourth strip.
-/
import Idealize.ShloMosaic.PureOps.Ideal
import Idealize.ShloMosaic.Lib.ValueIdx

noncomputable section

open scoped BigOperators
open Idealize.ShloMosaic Idealize.ShloMosaic.ValueIdx

namespace Cert.GatherMse

abbrev SRec : Shape := ⟨4, ![16, 256, 256, 256]⟩
abbrev SInp : Shape := ⟨3, ![16, 256, 256]⟩
abbrev SSel : Shape := ⟨1, ![16]⟩
abbrev SOut : Shape := ⟨3, ![16, 8, 128]⟩
abbrev SScalar : Shape := ⟨0, ![]⟩

/-- The depth batch `b` selects: its index word read as a natural number, inside the depth axis. -/
def sel (x2 : SSel.Idx → BitVec 32) (b : Fin 16) : Fin 256 :=
  ⟨(x2 (ix1 b)).toNat % 256, Nat.mod_lt _ (by decide)⟩

/-- A word that encodes a depth `k < 256` selects `k`. -/
theorem sel_of_eq (x2 : SSel.Idx → BitVec 32) (b : Fin 16) (k : Fin 256) (h : x2 (ix1 b) = BitVec.ofNat 32 k.val) :
    sel x2 b = k := by
  apply Fin.ext
  show (x2 (ix1 b)).toNat % 256 = k.val
  rw [h, BitVec.toNat_ofNat]
  have := k.isLt
  omega

/-- The squared difference at (b, r, w): the volume at the selected depth against the image. -/
def sqAt (rec : SRec.Idx → EReal) (inp : SInp.Idx → EReal) (s : Fin 16 → Fin 256) (b : Fin 16) (r w : Fin 256) : EReal :=
  (rec (ix4 b r w (s b)) - inp (ix3 b r w)) * (rec (ix4 b r w (s b)) - inp (ix3 b r w))

/-- The sum of all squared differences. -/
def total (rec : SRec.Idx → EReal) (inp : SInp.Idx → EReal) (s : Fin 16 → Fin 256) : EReal :=
  ∑ b : Fin 16, ∑ r : Fin 256, ∑ w : Fin 256, sqAt rec inp s b r w

/-- The loss as the host divides it: the total over the word that encodes 2²⁰. -/
def loss (rec : SRec.Idx → EReal) (inp : SInp.Idx → EReal) (s : Fin 16 → Fin 256) : FVec Ideal SScalar .f32 :=
  Host.divf (F := Ideal) (fun _ => total rec inp s) (constant SScalar .f32 0x49800000#32)

/-- Row `r` of strip `h`: `64 h + r`. -/
def stripRow (h : Fin 4) (r : Fin 64) : Fin 256 := ⟨64 * h.val + r.val, by have := h.isLt; have := r.isLt; omega⟩

/-- Strip `h` of batch `b`: the squared differences of its 64 rows, summed row by row. -/
def part (rec : SRec.Idx → EReal) (inp : SInp.Idx → EReal) (s : Fin 16 → Fin 256) (b : Fin 16) (h : Fin 4) : EReal :=
  ∑ r : Fin 64, ∑ w : Fin 256, sqAt rec inp s b (stripRow h r) w

/-- The scale the kernel multiplies each strip sum by: the word of `2⁻¹⁰`. -/
def kscale : EReal := Ideal.ofBits .f32 0x3A800000#32

/-- Batch `b`'s running value after the fourth strip, in the kernel's order of operations. -/
def accum (rec : SRec.Idx → EReal) (inp : SInp.Idx → EReal) (s : Fin 16 → Fin 256) (b : Fin 16) : EReal :=
  (((0 + part rec inp s b 0 * kscale) + part rec inp s b 1 * kscale) + part rec inp s b 2 * kscale)
    + part rec inp s b 3 * kscale

end Cert.GatherMse

end
-- ==== Proof.PreDecode.lean ====
/-
  What the precondition says, read out of its printed form: every depth word encodes a depth below 256, and (over
  the extended reals) every entry of the volume and of the image is a real number.

  The precondition is a conjunction of four "for all entries" tests, each a fold by `and` that started at 1: the
  absolute value of every volume entry is below +∞, likewise for the image, every depth word is at least 0 (signed),
  and every depth word is below 256 (signed). A conjunction that is 1 has both conjuncts 1, and a fold by `and` that
  is 1 met a 1 at every entry, so each test holds entry by entry. A word in [0, 256) signed has a clear top bit and so
  reads the same unsigned: it is the word of a natural number below 256. Over the extended reals the word of +∞ is ⊤,
  and |x| = max x (−x) is below ⊤ only when x is neither ⊤ nor ⊥, that is, a real number.
-/
import proofs.«416362_j53412213293096_3_alg».proof.Pre_finite_inputs
import proofs.«416362_j53412213293096_3_alg».proof.Proof.Spec
import Idealize.ShloMosaic.Lib.ReduceAll
import Idealize.ShloMosaic.Lib.StableHlo.Predicate

noncomputable section

open Idealize.ShloMosaic Idealize.ShloMosaic.ValueIdx

namespace Cert.GatherMse

variable [Cert.Pre_finite_inputs.Facts]

/-- A scalar has exactly one index. -/
theorem subsingleton_scalar_idx : Subsingleton Cert.Pre_finite_inputs.S_.Idx := ⟨fun _ _ => funext fun d => d.elim0⟩

/-- The precondition's four conjuncts, each at every entry: |volume| below the word of +∞, |image| below the word of +∞,
    depth word at least 0, depth word below 256 (both signed). -/
theorem pre_split {F : FTy → Type} [FloatOps F] (x0 : FVec F SRec .f32) (x1 : FVec F SInp .f32) (x2 : IVec SSel 32)
    (h : Cert.Pre_finite_inputs.fn (F := F) x0 x1 x2 = fun _ => 1#1) :
    (∀ i, FloatOps.cmpf .olt (FloatOps.hostAbsf (x0 i)) (FloatOps.ofBits (F := F) .f32 0x7F800000#32) = 1#1) ∧
    (∀ i, FloatOps.cmpf .olt (FloatOps.hostAbsf (x1 i)) (FloatOps.ofBits (F := F) .f32 0x7F800000#32) = 1#1) ∧
    (∀ i, IntOp.cmpi .sge (x2 i) 0#32 = 1#1) ∧ (∀ i, IntOp.cmpi .slt (x2 i) 256#32 = 1#1) := by
  haveI := subsingleton_scalar_idx
  have e := congrFun h ix0
  dsimp only [Cert.Pre_finite_inputs.fn, Cert.Pre_finite_inputs.fn_part1, andi] at e
  rw [IntOp.andi_eq_one, IntOp.andi_eq_one, IntOp.andi_eq_one] at e
  obtain ⟨⟨⟨e0, e1⟩, e2⟩, e3⟩ := e
  -- a broadcast constant read at an entry is the constant, so each fold's entry is the compare as stated
  exact ⟨fun i => Host.reduce_andi_all _ _ _ _ _ e0 i, fun i => Host.reduce_andi_all _ _ _ _ _ e1 i,
    fun i => Host.reduce_andi_all _ _ _ _ _ e2 i, fun i => Host.reduce_andi_all _ _ _ _ _ e3 i⟩

/-- A word that tests at least 0 and below 256, both signed, encodes a depth below 256. -/
theorem word_of_range (v : BitVec 32) (h0 : IntOp.cmpi .sge v 0#32 = 1#1) (h1 : IntOp.cmpi .slt v 256#32 = 1#1) :
    ∃ k : Fin 256, v = BitVec.ofNat 32 k.val := by
  rw [IntOp.cmpi_sge] at h0
  rw [IntOp.cmpi_slt] at h1
  have z : (0#32 : BitVec 32).toInt = 0 := by decide
  have t : (256#32 : BitVec 32).toInt = 256 := by decide
  rw [z] at h0; rw [t] at h1
  have hv := v.isLt
  -- the signed reading is the unsigned one when the top bit is clear, and 2³² less otherwise (then negative)
  rw [BitVec.toInt_eq_toNat_cond] at h0 h1
  have hlt : v.toNat < 256 := by split at h0 <;> omega
  exact ⟨⟨v.toNat, hlt⟩, by apply BitVec.eq_of_toNat_eq; rw [BitVec.toNat_ofNat]; show v.toNat = v.toNat % 2 ^ 32; omega⟩

/-- An extended real whose absolute value tests below the word of +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  -- over the extended reals the test is the order's: max x (−x) < ⊤
  have h' : Ideal.cmp .olt (max x (-x)) (Ideal.ofBits .f32 0x7F800000#32) = 1#1 := h
  rw [htop] at h'
  unfold Ideal.cmp at h'
  rw [StableHlo.Predicate.ofBool_eq_one_iff] at h'
  have hlt : max x (-x) < ⊤ := by simpa using h'
  induction x using EReal.rec with
  | bot => simp at hlt
  | coe r => exact ⟨r, rfl⟩
  | top => simp at hlt

/-- Under the precondition every depth word is `k` for some `k < 256` (whatever the float instance). -/
theorem idx_of_pre {F : FTy → Type} [FloatOps F] (x0 : FVec F SRec .f32) (x1 : FVec F SInp .f32) (x2 : IVec SSel 32)
    (h : Cert.Pre_finite_inputs.fn (F := F) x0 x1 x2 = fun _ => 1#1) :
    ∀ b : Fin 16, ∃ k : Fin 256, x2 (ix1 b) = BitVec.ofNat 32 k.val := by
  obtain ⟨-, -, hge, hlt⟩ := pre_split x0 x1 x2 h
  exact fun b => word_of_range _ (hge (ix1 b)) (hlt (ix1 b))

/-- Under the precondition, over the extended reals, every entry of the volume is a real number. -/
theorem rec_real_of_pre (x0 : FVec Ideal SRec .f32) (x1 : FVec Ideal SInp .f32) (x2 : IVec SSel 32)
    (h : Cert.Pre_finite_inputs.fn (F := Ideal) x0 x1 x2 = fun _ => 1#1) :
    ∀ i, ∃ x : ℝ, x0 i = (x : EReal) := by
  obtain ⟨h0, -, -, -⟩ := pre_split x0 x1 x2 h
  exact fun i => real_of_abs_lt (x0 i) (h0 i)

/-- Under the precondition, over the extended reals, every entry of the image is a real number. -/
theorem inp_real_of_pre (x0 : FVec Ideal SRec .f32) (x1 : FVec Ideal SInp .f32) (x2 : IVec SSel 32)
    (h : Cert.Pre_finite_inputs.fn (F := Ideal) x0 x1 x2 = fun _ => 1#1) :
    ∀ i, ∃ x : ℝ, x1 i = (x : EReal) := by
  obtain ⟨-, h1, -, -⟩ := pre_split x0 x1 x2 h
  exact fun i => real_of_abs_lt (x1 i) (h1 i)

end Cert.GatherMse

end
-- ==== Proof.TablesBits.lean ====
/-
  The two tables the host computes before the kernel runs, and the side condition on them. The depth word is
  clamped into [0, 255]; its quotient by 128 (0 or 1) chooses which half of the depth axis a block is fetched from,
  its remainder is the lane inside that half. A depth word that already encodes `k < 256` is its own clamp, so the
  tables hold `k / 128` and `k % 128`; and a half index of 0 or 1 keeps every fetched block inside the volume.

  The host writes floor division and floor remainder as the truncated ones with a sign correction; every operation
  is elementwise, so each table entry is one function of the depth word at the same batch (`halfW`, `laneW`), and
  on the 256 words that encode a depth those two functions are checked by evaluation.
-/
import proofs.«416362_j53412213293096_3_alg».proof.Proof.Gen.Kernel.Frame
import proofs.«416362_j53412213293096_3_alg».proof.Proof.Spec
import Idealize.ShloMosaic.Lib.StableHlo.Run

noncomputable section

open Idealize.ShloMosaic Idealize.ShloMosaic.TcCoe Idealize.SL.Sem Idealize.ShloMosaic.ValueIdx

namespace Cert.Kernel.Tables

open Cert.Kernel Cert.Kernel.Gen

variable {F : FTy → Type} [FloatOps F]
variable (m : (ℓ : Loc nD τ sig) → Buf (Elt F) ℓ)

/-! ## The host's arithmetic on one depth word -/

/-- The sign of a word as a two's-complement integer: 0, -1 or 1. -/
def sgnW (v : BitVec 32) : BitVec 32 := if v = 0 then 0 else if v.msb then -1 else 1

/-- A depth word clamped into [0, 255]. -/
def clampW (v : BitVec 32) : BitVec 32 := IntOp.minsi 255#32 (IntOp.maxsi 0#32 v)

/-- The floor quotient by 128 of the clamped word: the truncated quotient, lowered by one when the signs differ and
    the remainder is not zero. -/
def halfW (v : BitVec 32) : BitVec 32 :=
  Scalar.select
    (IntOp.andi (IntOp.cmpi .ne (sgnW (clampW v)) (sgnW 128#32)) (IntOp.cmpi .ne (IntOp.remsi .host (clampW v) 128#32) 0#32))
    (IntOp.subi (IntOp.divsi .host (clampW v) 128#32) 1#32)
    (IntOp.divsi .host (clampW v) 128#32)

/-- The divisor the remainder is taken by: 128, or 1 were it zero. -/
def divisorW : BitVec 32 := Scalar.select (IntOp.cmpi .eq 128#32 0#32) 1#32 128#32

/-- The floor remainder by 128 of the clamped word: the truncated remainder, raised by the divisor when it is not
    zero and its sign differs from the divisor's. -/
def laneW (v : BitVec 32) : BitVec 32 :=
  Scalar.select
    (IntOp.andi
      (IntOp.cmpi .ne (IntOp.cmpi .slt (IntOp.remsi .host (clampW v) divisorW) 0#32) (IntOp.cmpi .slt divisorW 0#32))
      (IntOp.cmpi .ne (IntOp.remsi .host (clampW v) divisorW) 0#32))
    (IntOp.addi (IntOp.remsi .host (clampW v) divisorW) divisorW)
    (IntOp.remsi .host (clampW v) divisorW)

/-- On a word that encodes a depth below 256, the quotient word encodes the depth's quotient by 128. -/
theorem halfW_ofNat : ∀ k : Fin 256, halfW (BitVec.ofNat 32 k.val) = BitVec.ofNat 32 (k.val / 128) := by
  decide +kernel

/-- On a word that encodes a depth below 256, the remainder word encodes the depth's remainder by 128. -/
theorem laneW_ofNat : ∀ k : Fin 256, laneW (BitVec.ofNat 32 k.val) = BitVec.ofNat 32 (k.val % 128) := by
  decide +kernel

/-! ## The host's operations on the vector of depth words -/

/-- A scalar spread over the 16 batches. -/
abbrev spread {α : Type} (x : S_.Idx → α) : S16.Idx → α := broadcastInDim S16 ![] bcast_S_S16 x

/-- The depth words clamped into [0, 255]. -/
def clampOf (x : IVec S16 32) : IVec S16 32 :=
  minsi (spread (constantI S_ 32 255#32)) (maxsi (spread (constantI S_ 32 0#32)) x)

/-- The half table as the host computes it from the depth words. -/
def halfOf (x : IVec S16 32) : IVec S16 32 :=
  select
    (andi (cmpi .ne (signi (clampOf x)) (spread (signi (constantI S_ 32 128#32))))
      (cmpi .ne (Host.remsi (clampOf x) (spread (constantI S_ 32 128#32))) (spread (constantI S_ 32 0#32))))
    (subi (Host.divsi (clampOf x) (spread (constantI S_ 32 128#32))) (spread (constantI S_ 32 1#32)))
    (Host.divsi (clampOf x) (spread (constantI S_ 32 128#32)))

/-- The divisor of the remainder as a scalar: 128, or 1 were it zero. -/
def divisorOf : IVec S_ 32 :=
  select (cmpi .eq (constantI S_ 32 128#32) (constantI S_ 32 0#32)) (constantI S_ 32 1#32) (constantI S_ 32 128#32)

/-- The lane table as the host computes it from the depth words. -/
def laneOf (x : IVec S16 32) : IVec S16 32 :=
  select
    (andi
      (cmpi .ne (cmpi .slt (Host.remsi (clampOf x) (spread divisorOf)) (spread (constantI S_ 32 0#32)))
        (spread (cmpi .slt divisorOf (constantI S_ 32 0#32))))
      (cmpi .ne (Host.remsi (clampOf x) (spread divisorOf)) (spread (constantI S_ 32 0#32))))
    (addi (Host.remsi (clampOf x) (spread divisorOf)) (spread divisorOf))
    (Host.remsi (clampOf x) (spread divisorOf))

/-- Every operation is elementwise: the half table at a batch is the quotient word of that batch's depth word. -/
theorem halfOf_apply (x : IVec S16 32) (j : S16.Idx) : halfOf x j = halfW (x j) := rfl

/-- Likewise the lane table at a batch is the remainder word of that batch's depth word. -/
theorem laneOf_apply (x : IVec S16 32) (j : S16.Idx) : laneOf x j = laneW (x j) := rfl

/-! ## The tables read off the host's operations -/

/-- The half table is the host's quotient term of the depth words as launched. -/
theorem tbl0_term : (tbl m 0 : IVec S16 32) = halfOf (m (((0 : Dev nD) : Thread nD τ).loc main_arg2)) := by
  show (V m (0 : Dev nD) main_v1 : IVec S16 32) = _
  dsimp only [Gen.V, Gen.V0]
  simp only [hostOps0, hostOps0_1, hostOps0_2, hostOps0_3, hostOps0_4, hostOps0_5, List.flatten_cons, List.flatten_nil,
    List.append_nil, List.cons_append, List.nil_append]
  after_results_simp
  simp only [StableHlo.TRef.ofBuf, StableHlo.TRef.toBuf, cast_eq, id_eq]
  rfl

/-- The lane table is the host's remainder term of the depth words as launched. -/
theorem tbl1_term : (tbl m 1 : IVec S16 32) = laneOf (m (((0 : Dev nD) : Thread nD τ).loc main_arg2)) := by
  show (V m (0 : Dev nD) main_v2 : IVec S16 32) = _
  dsimp only [Gen.V, Gen.V0]
  simp only [hostOps0, hostOps0_1, hostOps0_2, hostOps0_3, hostOps0_4, hostOps0_5, List.flatten_cons, List.flatten_nil,
    List.append_nil, List.cons_append, List.nil_append]
  after_results_simp
  simp only [StableHlo.TRef.ofBuf, StableHlo.TRef.toBuf, cast_eq, id_eq]
  rfl

/-- The half table at batch `b`: the depth's quotient by 128. -/
theorem tbl0_eq (b : Fin 16) (k : Fin 256)
    (hk : m (((0 : Dev nD) : Thread nD τ).loc main_arg2) (ix1 b) = BitVec.ofNat 32 k.val) :
    tbl m 0 (ix1 b) = BitVec.ofNat 32 (k.val / 128) := by
  have e := congrFun (tbl0_term m) (ix1 b)
  rw [halfOf_apply, hk, halfW_ofNat k] at e
  exact e

/-- The lane table at batch `b`: the depth's remainder by 128. -/
theorem tbl1_eq (b : Fin 16) (k : Fin 256)
    (hk : m (((0 : Dev nD) : Thread nD τ).loc main_arg2) (ix1 b) = BitVec.ofNat 32 k.val) :
    tbl m 1 (ix1 b) = BitVec.ofNat 32 (k.val % 128) := by
  have e := congrFun (tbl1_term m) (ix1 b)
  rw [laneOf_apply, hk, laneW_ofNat k] at e
  exact e

/-- With every depth word in range the half table holds 0 or 1 at every index. -/
theorem half_le_one (h : ∀ b : Fin 16, ∃ k : Fin 256,
      m (((0 : Dev nD) : Thread nD τ).loc main_arg2) (ix1 b) = BitVec.ofNat 32 k.val) (x : S16.Idx) :
    (tbl m 0 x).toNat ≤ 1 := by
  obtain ⟨k, hk⟩ := h (x 0)
  have e : tbl m 0 x = BitVec.ofNat 32 (k.val / 128) :=
    (congrArg (tbl m 0) (eq_ix1 (n := 16) x)).trans (tbl0_eq m (x 0) k hk)
  rw [e, BitVec.toNat_ofNat]
  have := k.isLt
  omega

/-- With every depth word in range, every block the volume's window fetches lies inside the volume. -/
theorem ok_of_idx (h : ∀ b : Fin 16, ∃ k : Fin 256,
      m (((0 : Dev nD) : Thread nD τ).loc main_arg2) (ix1 b) = BitVec.ofNat 32 k.val) : Ok m := by
  intro i
  -- window 0's block index at grid point (b, s): (b, s, 0, half[b]), the last a word of the half table
  obtain ⟨w, hw, e⟩ : ∃ w : BitVec 32, w.toNat ≤ 1 ∧
      cc0_transform_0 k0_off1_inb numel1_S1 (tbl m) i
        = ![(BitVec.ofNat 32 (i 0).val).toNat, (BitVec.ofNat 32 (i 1).val).toNat, (0#32).toNat, w.toNat] :=
    ⟨_, half_le_one m h _, rfl⟩
  refine ⟨fun a => ?_, Or.inl rfl⟩
  rw [e]
  have h0 : (i 0).val < 16 := (i 0).isLt
  have h1 : (i 1).val < 4 := (i 1).isLt
  fin_cases a <;> simp [S1x64x256x128, S16x256x256x256, BitVec.toNat_ofNat] <;> omega

end Cert.Kernel.Tables

end
-- ==== Proof.TablesIdeal.lean ====
/-
  The two tables the host computes before the kernel runs, and the side condition on them. The depth word is
  clamped into [0, 255]; its quotient by 128 (0 or 1) chooses which half of the depth axis a block is fetched from,
  its remainder is the lane inside that half. A depth word that already encodes `k < 256` is its own clamp, so the
  tables hold `k / 128` and `k % 128`; and a half index of 0 or 1 keeps every fetched block inside the volume.

  The host writes floor division and floor remainder as the truncated ones with a sign correction; every operation
  is elementwise, so each table entry is one function of the depth word at the same batch (`halfW`, `laneW`), and
  on the 256 words that encode a depth those two functions are checked by evaluation.
-/
import proofs.«416362_j53412213293096_3_alg».proof.Proof.Gen.KernelIdeal.Frame
import proofs.«416362_j53412213293096_3_alg».proof.Proof.Spec
import Idealize.ShloMosaic.Lib.StableHlo.Run

noncomputable section

open Idealize.ShloMosaic Idealize.ShloMosaic.TcCoe Idealize.SL.Sem Idealize.ShloMosaic.ValueIdx

namespace Cert.KernelIdeal.Tables

open Cert.KernelIdeal Cert.KernelIdeal.Gen

variable {F : FTy → Type} [FloatOps F]
variable (m : (ℓ : Loc nD τ sig) → Buf (Elt F) ℓ)

/-! ## The host's arithmetic on one depth word -/

/-- The sign of a word as a two's-complement integer: 0, -1 or 1. -/
def sgnW (v : BitVec 32) : BitVec 32 := if v = 0 then 0 else if v.msb then -1 else 1

/-- A depth word clamped into [0, 255]. -/
def clampW (v : BitVec 32) : BitVec 32 := IntOp.minsi 255#32 (IntOp.maxsi 0#32 v)

/-- The floor quotient by 128 of the clamped word: the truncated quotient, lowered by one when the signs differ and
    the remainder is not zero. -/
def halfW (v : BitVec 32) : BitVec 32 :=
  Scalar.select
    (IntOp.andi (IntOp.cmpi .ne (sgnW (clampW v)) (sgnW 128#32)) (IntOp.cmpi .ne (IntOp.remsi .host (clampW v) 128#32) 0#32))
    (IntOp.subi (IntOp.divsi .host (clampW v) 128#32) 1#32)
    (IntOp.divsi .host (clampW v) 128#32)

/-- The divisor the remainder is taken by: 128, or 1 were it zero. -/
def divisorW : BitVec 32 := Scalar.select (IntOp.cmpi .eq 128#32 0#32) 1#32 128#32

/-- The floor remainder by 128 of the clamped word: the truncated remainder, raised by the divisor when it is not
    zero and its sign differs from the divisor's. -/
def laneW (v : BitVec 32) : BitVec 32 :=
  Scalar.select
    (IntOp.andi
      (IntOp.cmpi .ne (IntOp.cmpi .slt (IntOp.remsi .host (clampW v) divisorW) 0#32) (IntOp.cmpi .slt divisorW 0#32))
      (IntOp.cmpi .ne (IntOp.remsi .host (clampW v) divisorW) 0#32))
    (IntOp.addi (IntOp.remsi .host (clampW v) divisorW) divisorW)
    (IntOp.remsi .host (clampW v) divisorW)

/-- On a word that encodes a depth below 256, the quotient word encodes the depth's quotient by 128. -/
theorem halfW_ofNat : ∀ k : Fin 256, halfW (BitVec.ofNat 32 k.val) = BitVec.ofNat 32 (k.val / 128) := by
  decide +kernel

/-- On a word that encodes a depth below 256, the remainder word encodes the depth's remainder by 128. -/
theorem laneW_ofNat : ∀ k : Fin 256, laneW (BitVec.ofNat 32 k.val) = BitVec.ofNat 32 (k.val % 128) := by
  decide +kernel

/-! ## The host's operations on the vector of depth words -/

/-- A scalar spread over the 16 batches. -/
abbrev spread {α : Type} (x : S_.Idx → α) : S16.Idx → α := broadcastInDim S16 ![] bcast_S_S16 x

/-- The depth words clamped into [0, 255]. -/
def clampOf (x : IVec S16 32) : IVec S16 32 :=
  minsi (spread (constantI S_ 32 255#32)) (maxsi (spread (constantI S_ 32 0#32)) x)

/-- The half table as the host computes it from the depth words. -/
def halfOf (x : IVec S16 32) : IVec S16 32 :=
  select
    (andi (cmpi .ne (signi (clampOf x)) (spread (signi (constantI S_ 32 128#32))))
      (cmpi .ne (Host.remsi (clampOf x) (spread (constantI S_ 32 128#32))) (spread (constantI S_ 32 0#32))))
    (subi (Host.divsi (clampOf x) (spread (constantI S_ 32 128#32))) (spread (constantI S_ 32 1#32)))
    (Host.divsi (clampOf x) (spread (constantI S_ 32 128#32)))

/-- The divisor of the remainder as a scalar: 128, or 1 were it zero. -/
def divisorOf : IVec S_ 32 :=
  select (cmpi .eq (constantI S_ 32 128#32) (constantI S_ 32 0#32)) (constantI S_ 32 1#32) (constantI S_ 32 128#32)

/-- The lane table as the host computes it from the depth words. -/
def laneOf (x : IVec S16 32) : IVec S16 32 :=
  select
    (andi
      (cmpi .ne (cmpi .slt (Host.remsi (clampOf x) (spread divisorOf)) (spread (constantI S_ 32 0#32)))
        (spread (cmpi .slt divisorOf (constantI S_ 32 0#32))))
      (cmpi .ne (Host.remsi (clampOf x) (spread divisorOf)) (spread (constantI S_ 32 0#32))))
    (addi (Host.remsi (clampOf x) (spread divisorOf)) (spread divisorOf))
    (Host.remsi (clampOf x) (spread divisorOf))

/-- Every operation is elementwise: the half table at a batch is the quotient word of that batch's depth word. -/
theorem halfOf_apply (x : IVec S16 32) (j : S16.Idx) : halfOf x j = halfW (x j) := rfl

/-- Likewise the lane table at a batch is the remainder word of that batch's depth word. -/
theorem laneOf_apply (x : IVec S16 32) (j : S16.Idx) : laneOf x j = laneW (x j) := rfl

/-! ## The tables read off the host's operations -/

/-- The half table is the host's quotient term of the depth words as launched. -/
theorem tbl0_term : (tbl m 0 : IVec S16 32) = halfOf (m (((0 : Dev nD) : Thread nD τ).loc main_arg2)) := by
  show (V m (0 : Dev nD) main_v1 : IVec S16 32) = _
  dsimp only [Gen.V, Gen.V0]
  simp only [hostOps0, hostOps0_1, hostOps0_2, hostOps0_3, hostOps0_4, hostOps0_5, List.flatten_cons, List.flatten_nil,
    List.append_nil, List.cons_append, List.nil_append]
  after_results_simp
  simp only [StableHlo.TRef.ofBuf, StableHlo.TRef.toBuf, cast_eq, id_eq]
  rfl

/-- The lane table is the host's remainder term of the depth words as launched. -/
theorem tbl1_term : (tbl m 1 : IVec S16 32) = laneOf (m (((0 : Dev nD) : Thread nD τ).loc main_arg2)) := by
  show (V m (0 : Dev nD) main_v2 : IVec S16 32) = _
  dsimp only [Gen.V, Gen.V0]
  simp only [hostOps0, hostOps0_1, hostOps0_2, hostOps0_3, hostOps0_4, hostOps0_5, List.flatten_cons, List.flatten_nil,
    List.append_nil, List.cons_append, List.nil_append]
  after_results_simp
  simp only [StableHlo.TRef.ofBuf, StableHlo.TRef.toBuf, cast_eq, id_eq]
  rfl

/-- The half table at batch `b`: the depth's quotient by 128. -/
theorem tbl0_eq (b : Fin 16) (k : Fin 256)
    (hk : m (((0 : Dev nD) : Thread nD τ).loc main_arg2) (ix1 b) = BitVec.ofNat 32 k.val) :
    tbl m 0 (ix1 b) = BitVec.ofNat 32 (k.val / 128) := by
  have e := congrFun (tbl0_term m) (ix1 b)
  rw [halfOf_apply, hk, halfW_ofNat k] at e
  exact e

/-- The lane table at batch `b`: the depth's remainder by 128. -/
theorem tbl1_eq (b : Fin 16) (k : Fin 256)
    (hk : m (((0 : Dev nD) : Thread nD τ).loc main_arg2) (ix1 b) = BitVec.ofNat 32 k.val) :
    tbl m 1 (ix1 b) = BitVec.ofNat 32 (k.val % 128) := by
  have e := congrFun (tbl1_term m) (ix1 b)
  rw [laneOf_apply, hk, laneW_ofNat k] at e
  exact e

/-- With every depth word in range the half table holds 0 or 1 at every index. -/
theorem half_le_one (h : ∀ b : Fin 16, ∃ k : Fin 256,
      m (((0 : Dev nD) : Thread nD τ).loc main_arg2) (ix1 b) = BitVec.ofNat 32 k.val) (x : S16.Idx) :
    (tbl m 0 x).toNat ≤ 1 := by
  obtain ⟨k, hk⟩ := h (x 0)
  have e : tbl m 0 x = BitVec.ofNat 32 (k.val / 128) :=
    (congrArg (tbl m 0) (eq_ix1 (n := 16) x)).trans (tbl0_eq m (x 0) k hk)
  rw [e, BitVec.toNat_ofNat]
  have := k.isLt
  omega

/-- With every depth word in range, every block the volume's window fetches lies inside the volume. -/
theorem ok_of_idx (h : ∀ b : Fin 16, ∃ k : Fin 256,
      m (((0 : Dev nD) : Thread nD τ).loc main_arg2) (ix1 b) = BitVec.ofNat 32 k.val) : Ok m := by
  intro i
  -- window 0's block index at grid point (b, s): (b, s, 0, half[b]), the last a word of the half table
  obtain ⟨w, hw, e⟩ : ∃ w : BitVec 32, w.toNat ≤ 1 ∧
      cc0_transform_0 k0_off1_inb numel1_S1 (tbl m) i
        = ![(BitVec.ofNat 32 (i 0).val).toNat, (BitVec.ofNat 32 (i 1).val).toNat, (0#32).toNat, w.toNat] :=
    ⟨_, half_le_one m h _, rfl⟩
  refine ⟨fun a => ?_, Or.inl rfl⟩
  rw [e]
  have h0 : (i 0).val < 16 := (i 0).isLt
  have h1 : (i 1).val < 4 := (i 1).isLt
  fin_cases a <;> simp [S1x64x256x128, S16x256x256x256, BitVec.toNat_ofNat] <;> omega

end Cert.KernelIdeal.Tables

end
-- ==== Proof.KPieces.lean ====
/-
  What one run of the kernel body leaves behind, case by case, as a value: in every case the accumulator tile ends
  at ONE step of the accumulation — the payload that adds the strip's scaled sum — applied to the lane word of the
  point's batch, the two input blocks, and the tile as the step found it: the zero tile at a batch's first strip
  (the body has just reset it), what the previous point left otherwise. At a batch's last strip the output tile
  is a copy of the accumulator tile.
-/
import proofs.«416362_j53412213293096_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The word a point reads from the lane table: the table's entry at the point's batch coordinate. -/
def laneAt (c : Dev nD) (i : grid0.Coords) (xt1 : TbBuf0 (F := F) c tbM0_1) : Elt F .i32 :=
  View.ld (View.read (Elt F) (View.whole main_v2) xt1) (Rect.unit (s := S16) (k0_off1 i) S1.size (k0_off1_inb i))
    (Shape.Idx.first (numel1_S1.symm ▸ Nat.one_pos))

/-- One step of the accumulation: the tile `acc` gains the strip's scaled sum of squared differences. -/
abbrev step (w : Elt F .i32) (x0 : Vec F S1x64x256x128 .f32) (x1 : Vec F S1x64x256 .f32) (acc : Vec F S1x8x128 .f32) :
    Vec F S1x8x128 .f32 := k0_pay2 w x0 x1 acc

/-- The zero tile a batch's first strip starts from. -/
abbrev zeroTile : Vec F S1x8x128 .f32 := k0_pay1 (F := F)

/-- A batch's first strip: the tile is reset, read back, and one step is taken from the zero tile. -/
theorem sout_A (c : Dev nD) (i : grid0.Coords) (a4 : Memref sig .tc .vmem S1x64x256x128 .f32) (h4 : a4.IsWhole)
    (a5 : Memref sig .tc .vmem S1x64x256 .f32) (h5 : a5.IsWhole) (a6 : Memref sig .tc .vmem S1x8x128 .f32) (h6 : a6.IsWhole)
    (a7 : Memref sig .tc .vmem S1x8x128 .f32) (h7 : a7.IsWhole) (hc0 : cond0_0 i) (hc1 : ¬cond0_1 i)
    (x0 : Vec F S1x64x256x128 .f32) (x1 : Vec F S1x64x256 .f32) (xt0 : TbBuf0 (F := F) c tbM0_0) (xt1 : TbBuf0 (F := F) c tbM0_1) :
    sout0_A_0 c i a4 h4 a5 h5 a6 h6 a7 h7 hc0 hc1 x0 x1 xt0 xt1 = step (laneAt c i xt1) x0 x1 zeroTile := by
  unfold sout0_A_0
  rw [View.read_writes_eq_canon _ _ _ (scover0_A_0 c i a4 h4 a5 h5 a6 h6 a7 h7 hc0 hc1 x0 x1 xt0 xt1)]
  unfold kernelRun0_A
  dsimp only
  sl_unfold_words
  rw [View.canon_cons_unit_zero (S := S1x8x128) hz3, View.readCov_unit_zero (S := S1x8x128) _ hz3]
  simp only [View.readAt_eq_ld, h4.read_unread, h5.read_unread, View.ld_unit_zero (S := S1x64x256x128) hz4,
    View.ld_unit_zero (S := S1x64x256) hz3]
  rfl

/-- A middle strip: one step from what the previous point left. -/
theorem sout_B (c : Dev nD) (i : grid0.Coords) (a4 : Memref sig .tc .vmem S1x64x256x128 .f32) (h4 : a4.IsWhole)
    (a5 : Memref sig .tc .vmem S1x64x256 .f32) (h5 : a5.IsWhole) (a6 : Memref sig .tc .vmem S1x8x128 .f32) (h6 : a6.IsWhole)
    (a7 : Memref sig .tc .vmem S1x8x128 .f32) (h7 : a7.IsWhole) (hc0 : ¬cond0_0 i) (hc1 : ¬cond0_1 i)
    (x0 : Vec F S1x64x256x128 .f32) (x1 : Vec F S1x64x256 .f32) (xt0 : TbBuf0 (F := F) c tbM0_0) (xt1 : TbBuf0 (F := F) c tbM0_1) (xs0 : Vec F S1x8x128 .f32) :
    sout0_B_0 c i a4 h4 a5 h5 a6 h6 a7 h7 hc0 hc1 x0 x1 xt0 xt1 xs0 = step (laneAt c i xt1) x0 x1 xs0 := by
  unfold sout0_B_0
  rw [View.read_writes_eq_canon _ _ _ (scover0_B_0 c i a4 h4 a5 h5 a6 h6 a7 h7 hc0 hc1 x0 x1 xt0 xt1 xs0)]
  unfold kernelRun0_B
  dsimp only
  sl_unfold_words
  rw [View.canon_unit_zero hz3]
  simp only [View.readAt_eq_ld, h4.read_unread, h5.read_unread, h7.read_unread, View.ld_unit_zero (S := S1x64x256x128) hz4,
    View.ld_unit_zero (S := S1x64x256) hz3, View.ld_unit_zero (S := S1x8x128) hz3]
  rfl

/-- A batch's last strip, the accumulator tile: one step from what the previous point left. -/
theorem sout_C (c : Dev nD) (i : grid0.Coords) (a4 : Memref sig .tc .vmem S1x64x256x128 .f32) (h4 : a4.IsWhole)
    (a5 : Memref sig .tc .vmem S1x64x256 .f32) (h5 : a5.IsWhole) (a6 : Memref sig .tc .vmem S1x8x128 .f32) (h6 : a6.IsWhole)
    (a7 : Memref sig .tc .vmem S1x8x128 .f32) (h7 : a7.IsWhole) (hc0 : ¬cond0_0 i) (hc1 : cond0_1 i)
    (x0 : Vec F S1x64x256x128 .f32) (x1 : Vec F S1x64x256 .f32) (xt0 : TbBuf0 (F := F) c tbM0_0) (xt1 : TbBuf0 (F := F) c tbM0_1) (xs0 : Vec F S1x8x128 .f32) :
    sout0_C_0 c i a4 h4 a5 h5 a6 h6 a7 h7 hc0 hc1 x0 x1 xt0 xt1 xs0 = step (laneAt c i xt1) x0 x1 xs0 := by
  unfold sout0_C_0
  rw [View.read_writes_eq_canon _ _ _ (scover0_C_0 c i a4 h4 a5 h5 a6 h6 a7 h7 hc0 hc1 x0 x1 xt0 xt1 xs0)]
  unfold kernelRun0_C
  dsimp only
  sl_unfold_words
  rw [View.canon_unit_zero hz3]
  simp only [View.readAt_eq_ld, h4.read_unread, h5.read_unread, h7.read_unread, View.ld_unit_zero (S := S1x64x256x128) hz4,
    View.ld_unit_zero (S := S1x64x256) hz3, View.ld_unit_zero (S := S1x8x128) hz3]
  rfl

/-- A batch's last strip, the output tile: a copy of the accumulator tile after its step. -/
theorem out_C (c : Dev nD) (i : grid0.Coords) (a4 : Memref sig .tc .vmem S1x64x256x128 .f32) (h4 : a4.IsWhole)
    (a5 : Memref sig .tc .vmem S1x64x256 .f32) (h5 : a5.IsWhole) (a6 : Memref sig .tc .vmem S1x8x128 .f32) (h6 : a6.IsWhole)
    (a7 : Memref sig .tc .vmem S1x8x128 .f32) (h7 : a7.IsWhole) (hc0 : ¬cond0_0 i) (hc1 : cond0_1 i)
    (x0 : Vec F S1x64x256x128 .f32) (x1 : Vec F S1x64x256 .f32) (xt0 : TbBuf0 (F := F) c tbM0_0) (xt1 : TbBuf0 (F := F) c tbM0_1) (xs0 : Vec F S1x8x128 .f32) :
    out0_C_2 c i a4 h4 a5 h5 a6 h6 a7 h7 hc0 hc1 x0 x1 xt0 xt1 xs0 = step (laneAt c i xt1) x0 x1 xs0 := by
  unfold out0_C_2
  rw [View.read_writes_eq_canon _ _ _ (cover0_C_2 c i a4 h4 a5 h5 a6 h6 a7 h7 hc0 hc1 x0 x1 xt0 xt1 xs0)]
  unfold kernelRun0_C
  dsimp only
  sl_unfold_words
  rw [View.canon_unit_zero hz3, View.readCov_unit_zero (S := S1x8x128) _ hz3]
  simp only [View.readAt_eq_ld, h4.read_unread, h5.read_unread, h7.read_unread, View.ld_unit_zero (S := S1x64x256x128) hz4,
    View.ld_unit_zero (S := S1x64x256) hz3, View.ld_unit_zero (S := S1x8x128) hz3]
  rfl

end Cert.KernelIdeal.KValue

end
-- ==== Proof.KChain.lean ====
/-
  The accumulator tile point by point. The grid walks the 16 batches, four strips each (point 4 b + h is strip h
  of batch b). The running tile after a point is one step from the zero tile at a batch's first strip and one
  step from the previous point's tile otherwise; what the generated run says the scratch holds after each point is
  this running tile, and at a batch's last strip the output tile holds it too. By induction on the point.
-/
import proofs.«416362_j53412213293096_3_alg».proof.Proof.KPieces

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The volume's block at point `t`, at its literal type. -/
abbrev recBlk (hO : Ok m) (c : Dev nD) (t : Fin (cfgM m hO).N) : Vec F S1x64x256x128 .f32 := iblk m hO c 0 t
/-- The image's block at point `t`, at its literal type. -/
abbrev inpBlk (hO : Ok m) (c : Dev nD) (t : Fin (cfgM m hO).N) : Vec F S1x64x256 .f32 := iblk m hO c 1 t
/-- The lane word point `t` reads. -/
abbrev laneOf (c : Dev nD) (hO : Ok m) (t : Fin (cfgM m hO).N) : Elt F .i32 := laneAt c (grid0.coords t) (tbl m 1)

/-- The step point `t` takes. -/
def stepAt (hO : Ok m) (c : Dev nD) (t : Fin (cfgM m hO).N) (acc : Vec F S1x8x128 .f32) : Vec F S1x8x128 .f32 :=
  step (laneOf m c hO t) (recBlk m hO c t) (inpBlk m hO c t) acc

/-- The running tile after point `n`. -/
def accAt (hO : Ok m) (c : Dev nD) : (n : ℕ) → n < (cfgM m hO).N → Vec F S1x8x128 .f32
  | 0, h => stepAt m hO c ⟨0, h⟩ zeroTile
  | n + 1, h => stepAt m hO c ⟨n + 1, h⟩ (if (n + 1) % 4 = 0 then zeroTile else accAt hO c n (Nat.lt_of_succ_lt h))

/-- What the scratch holds after point `n` is the running tile. -/
theorem outsAt_snd (hO : Ok m) (c : Dev nD) : ∀ (n : ℕ) (h : n < (cfgM m hO).N), (outsAt0 m hO c n h).2 = accAt m hO c n h
  | 0, h => by
    rw [outsAt0_A m hO c ⟨0, h⟩ rfl (by show ¬(0 : ℕ) % 4 = 3; decide)]
    dsimp only
    exact sout_A c (grid0.coords ⟨0, h⟩) (ms0_0 m hO ⟨0, h⟩) (hs0_0 m hO ⟨0, h⟩) (ms0_1 m hO ⟨0, h⟩) (hs0_1 m hO ⟨0, h⟩)
      (ms0_2 m hO ⟨0, h⟩) (hs0_2 m hO ⟨0, h⟩) scM0_0 (Memref.isWhole_whole _) _ _ (iblk m hO c 0 ⟨0, h⟩) (iblk m hO c 1 ⟨0, h⟩) (tbl m 0) (tbl m 1)
  | n + 1, h => by
    have hN : (cfgM m hO).N = 64 := N_0
    by_cases h0 : (n + 1) % 4 = 0
    · have h1 : ¬(n + 1) % 4 = 3 := by omega
      rw [outsAt0_A m hO c ⟨n + 1, h⟩ h0 h1]
      dsimp only
      rw [accAt, if_pos h0]
      exact sout_A c (grid0.coords ⟨n + 1, h⟩) (ms0_0 m hO ⟨n + 1, h⟩) (hs0_0 m hO ⟨n + 1, h⟩) (ms0_1 m hO ⟨n + 1, h⟩) (hs0_1 m hO ⟨n + 1, h⟩)
        (ms0_2 m hO ⟨n + 1, h⟩) (hs0_2 m hO ⟨n + 1, h⟩) scM0_0 (Memref.isWhole_whole _) _ _ (iblk m hO c 0 ⟨n + 1, h⟩) (iblk m hO c 1 ⟨n + 1, h⟩) (tbl m 0) (tbl m 1)
    · by_cases h1 : (n + 1) % 4 = 3
      · rw [outsAt0_C m hO c ⟨n + 1, h⟩ h0 h1]
        dsimp only
        rw [accAt, if_neg h0, ← outsAt_snd hO c n (Nat.lt_of_succ_lt h)]
        exact sout_C c (grid0.coords ⟨n + 1, h⟩) (ms0_0 m hO ⟨n + 1, h⟩) (hs0_0 m hO ⟨n + 1, h⟩) (ms0_1 m hO ⟨n + 1, h⟩) (hs0_1 m hO ⟨n + 1, h⟩)
          (ms0_2 m hO ⟨n + 1, h⟩) (hs0_2 m hO ⟨n + 1, h⟩) scM0_0 (Memref.isWhole_whole _) _ _ (iblk m hO c 0 ⟨n + 1, h⟩) (iblk m hO c 1 ⟨n + 1, h⟩) (tbl m 0) (tbl m 1)
          (outsAt0 m hO c n (Nat.lt_of_succ_lt h)).2
      · rw [outsAt0_B m hO c ⟨n + 1, h⟩ h0 h1]
        dsimp only
        rw [accAt, if_neg h0, ← outsAt_snd hO c n (Nat.lt_of_succ_lt h)]
        exact sout_B c (grid0.coords ⟨n + 1, h⟩) (ms0_0 m hO ⟨n + 1, h⟩) (hs0_0 m hO ⟨n + 1, h⟩) (ms0_1 m hO ⟨n + 1, h⟩) (hs0_1 m hO ⟨n + 1, h⟩)
          (ms0_2 m hO ⟨n + 1, h⟩) (hs0_2 m hO ⟨n + 1, h⟩) scM0_0 (Memref.isWhole_whole _) _ _ (iblk m hO c 0 ⟨n + 1, h⟩) (iblk m hO c 1 ⟨n + 1, h⟩) (tbl m 0) (tbl m 1)
          (outsAt0 m hO c n (Nat.lt_of_succ_lt h)).2

/-- At a batch's last strip the output tile holds the running tile. -/
theorem outsAt_fst (hO : Ok m) (c : Dev nD) (t : Fin (cfgM m hO).N) (h3 : t.val % 4 = 3) :
    (outsAt0 m hO c t.val t.isLt).1 = accAt m hO c t.val t.isLt := by
  have h0 : ¬t.val % 4 = 0 := by omega
  rw [← outsAt_snd m hO c t.val t.isLt, outsAt0_C m hO c t h0 h3]
  dsimp only
  exact (out_C c (grid0.coords t) (ms0_0 m hO t) (hs0_0 m hO t) (ms0_1 m hO t) (hs0_1 m hO t)
      (ms0_2 m hO t) (hs0_2 m hO t) scM0_0 (Memref.isWhole_whole _) _ _ (iblk m hO c 0 t) (iblk m hO c 1 t) (tbl m 0) (tbl m 1)
      (outsAt0 m hO c (t.val - 1) (Nat.lt_of_le_of_lt (Nat.sub_le _ _) t.isLt)).2).trans
    (sout_C c (grid0.coords t) (ms0_0 m hO t) (hs0_0 m hO t) (ms0_1 m hO t) (hs0_1 m hO t)
      (ms0_2 m hO t) (hs0_2 m hO t) scM0_0 (Memref.isWhole_whole _) _ _ (iblk m hO c 0 t) (iblk m hO c 1 t) (tbl m 0) (tbl m 1)
      (outsAt0 m hO c (t.val - 1) (Nat.lt_of_le_of_lt (Nat.sub_le _ _) t.isLt)).2).symm

end Cert.KernelIdeal.KValue

end
-- ==== Proof.KFinal.lean ====
/-
  From the running tile to the program's result. The output array has one 8 × 128 tile per batch, written back once,
  after the batch's last strip (point 4 b + 3), with the running tile of that point; the sixteen tiles cover the
  array. The host then sums every entry of the array from zero and divides by the word of 2²⁰.
-/
import proofs.«416362_j53412213293096_3_alg».proof.Proof.KChain
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- Point `t` is strip `t % 4` of batch `t / 4`. -/
theorem coords_val : ∀ t : Fin grid0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The output window's block index at point `t`: tile `t / 4`. -/
theorem out_index : ∀ t : Fin grid0.N, cc0_transform_2 (grid0.coords t) 0 = t.val / 4
    ∧ cc0_transform_2 (grid0.coords t) 1 = 0 ∧ cc0_transform_2 (grid0.coords t) 2 = 0 :=
  (by decide +kernel : ∀ t : Fin grid0.N, cc0_transform_2 (grid0.coords t) 0 = t.val / 4
    ∧ cc0_transform_2 (grid0.coords t) 1 = 0 ∧ cc0_transform_2 (grid0.coords t) 2 = 0)

/-- The running tile does not depend on how its point is spelt. -/
theorem accAt_congr (hO : Ok m) (c : Dev nD) {n n' : ℕ} (e : n = n') (h : n < (cfgM m hO).N) (h' : n' < (cfgM m hO).N) :
    accAt m hO c n h = accAt m hO c n' h' := by subst e; rfl

/-- The output array after the run: entry (b, i, j) is entry (i, j) of the running tile after batch `b`'s last strip. -/
def finalOut (hO : Ok m) (c : Dev nD) : Buf (Elt F) ((c : Thread nD τ).loc main_v3) :=
  fun idx => accAt m hO c (4 * (idx 0).val + 3)
    (by have h0 : (idx 0).val < 16 := (idx 0).isLt; rw [show (cfgM m hO).N = 64 from N_0]; omega)
    (ix3 (0 : Fin 1) (idx 1 : Fin 8) (idx 2 : Fin 128))

/-- What a batch's last point writes back is its tile of that array. -/
theorem flushed_eq (hO : Ok m) (c : Dev nD) (t : Fin (cfgM m hO).N) (hf : ((cfgM m hO).win 2).flush t = true) :
    (dats m hO 0 c).flushed 2 t = (((cfgM m hO).win 2).blk t).view.read (Elt F) (finalOut m hO c) := by
  have h3 : t.val % 4 = 3 := (flush0_2 (adm m hO) t).mp hf
  show ((cfgM m hO).win 2).cut (grid0.coords t) ((dats m hO 0 c).after 2 t) = _
  rw [after0_2, outsAt_fst m hO c t h3]
  have hN : t.val < 64 := lt_of_lt_of_eq t.isLt (show (cfgM m hO).N = 64 from N_0)
  have hi := out_index t
  have key : ∀ y : S1x8x128.Idx, ((cfgM m hO).win 2).cut (grid0.coords t) (accAt m hO c t.val t.isLt) y
      = View.read (Elt F) (((cfgM m hO).win 2).blk t).view (finalOut m hO c) y := by
    intro y
    have hy0 : (y 0).val < 1 := (y 0).isLt
    have hemb : ((((cfgM m hO).win 2).blk t).view.emb y : S16x8x128.Idx)
        = ix3 (⟨t.val / 4, by omega⟩ : Fin 16) (y 1 : Fin 8) (y 2 : Fin 128) := by
      funext a
      apply Fin.ext
      match a with
      | ⟨0, _⟩ => show cc0_transform_2 (grid0.coords t) 0 * 1 + 1 * (y 0).val = t.val / 4; rw [hi.1]; omega
      | ⟨1, _⟩ => show cc0_transform_2 (grid0.coords t) 1 * 8 + 1 * (y 1).val = (y 1).val; rw [hi.2.1]; omega
      | ⟨2, _⟩ => show cc0_transform_2 (grid0.coords t) 2 * 128 + 1 * (y 2).val = (y 2).val; rw [hi.2.2]; omega
    refine Eq.trans ?_ (View.read_apply _ _).symm
    refine Eq.trans ?_ (congrArg (finalOut m hO c) hemb).symm
    unfold finalOut
    refine (congrFun (accAt_congr m hO c (show t.val = 4 * (t.val / 4) + 3 by omega) _ _) _).trans (congrArg _ ?_)
    funext a
    match a with
    | ⟨0, _⟩ => exact Fin.ext (by show (y 0).val = 0; omega)
    | ⟨1, _⟩ => rfl
    | ⟨2, _⟩ => rfl
  exact funext key

/-- The sixteen tiles cover the array (entry (b, i, j) lies in the block of point 4 b + 3), so the array ends at `finalOut`. -/
theorem final_out (hO : Ok m) (c : Dev nD) : (dats m hO 0 c).arrAt 2 (cfgM m hO).N = finalOut m hO c := by
  have key : ∀ i : S16x8x128.Idx, ∃ t : Fin (cfgM m hO).N, ((cfgM m hO).win 2).flush t = true
      ∧ i ∈ (((cfgM m hO).win 2).blk t).view.set := by
    intro i
    have h0 : (i 0).val < 16 := (i 0).isLt
    have h1 : (i 1).val < 8 := (i 1).isLt
    have h2 : (i 2).val < 128 := (i 2).isLt
    have hlt : 4 * (i 0).val + 3 < (cfgM m hO).N := by rw [show (cfgM m hO).N = 64 from N_0]; omega
    have hi := out_index ⟨4 * (i 0).val + 3, hlt⟩
    refine ⟨⟨4 * (i 0).val + 3, hlt⟩, (flush0_2 (adm m hO) _).mpr (by show (4 * (i 0).val + 3) % 4 = 3; omega), ?_⟩
    refine (Finset.ext_iff.mp (View.set_slice_whole main_v3 (((cfgM m hO).win 2).rect ⟨4 * (i 0).val + 3, hlt⟩)) i).mpr ?_
    refine Rect.mem_set_unit.mpr fun a => ?_
    match a with
    | ⟨0, _⟩ =>
      show cc0_transform_2 (grid0.coords ⟨4 * (i 0).val + 3, hlt⟩) 0 * 1 ≤ (i 0).val
        ∧ (i 0).val < cc0_transform_2 (grid0.coords ⟨4 * (i 0).val + 3, hlt⟩) 0 * 1 + 1
      rw [hi.1]; dsimp only; omega
    | ⟨1, _⟩ =>
      show cc0_transform_2 (grid0.coords ⟨4 * (i 0).val + 3, hlt⟩) 1 * 8 ≤ (i 1).val
        ∧ (i 1).val < cc0_transform_2 (grid0.coords ⟨4 * (i 0).val + 3, hlt⟩) 1 * 8 + 8
      rw [hi.2.1]; omega
    | ⟨2, _⟩ =>
      show cc0_transform_2 (grid0.coords ⟨4 * (i 0).val + 3, hlt⟩) 2 * 128 ≤ (i 2).val
        ∧ (i 2).val < cc0_transform_2 (grid0.coords ⟨4 * (i 0).val + 3, hlt⟩) 2 * 128 + 128
      rw [hi.2.2]; omega
  exact (dats m hO 0 c).arrAt_eq_of_cover 2 (finalOut m hO c) (flushed_eq m hO c) key

/-- The program's result as a function of the output array: every entry summed from zero, over the word of 2²⁰. -/
def resultOf (out : FVec F S16x8x128 .f32) : FVec F S_ .f32 :=
  Host.divf (Host.reduceAdd out (constant S_ .f32 0x00000000#32) reducesTo_S16x8x128_S_d0_1_2 h_S_) (constant S_ .f32 0x49800000#32)

/-- What the host lines after the region leave in the result buffer. -/
theorem tail_value (hO : Ok m) (c : Dev nD) :
    Pipeline.afterTail pcfgs (fun _ => adm m hO) (dats m hO) 0 (V0 m) [hostOps1] c main_v5 = resultOf (finalOut m hO c) := by
  unfold Pipeline.afterTail
  show StableHlo.after hostOps1 _ (Proc.devRef .tc main_v5) = _
  after_results
  exact congrArg resultOf ((Pipeline.withArrays_arr spec0 winFacts0.arr_inj c _ _ 2).trans (final_out m hO c))

/-- The run, read: the result buffer at the host's term of the final output array, the arguments unchanged. -/
theorem run_value (hO : Ok m) :
    θ_run defs (onTc (τ := τ) (main (F := F))) ⟨m, fun _ => 0, ρ⟩ fun r => ∀ c : Dev nD,
      r.2.mem ((c.tc : Thread nD τ).loc main_v5) = resultOf (finalOut m hO c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v5 (by decide : main_v5 ∈ Pipeline.restRefs sig spec0)).trans (tail_value m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (W_main_arg2 m hO (dats m hO) c)⟩) (run_main m ρ hO)

end Cert.KernelIdeal.KValue

end
-- ==== Proof.Payload.lean ====
/-
  The kernel body's arithmetic at one entry of the accumulator tile, over the extended reals: the one-hot lane
  product summed over the 128 lanes picks the lane the offset word names (every entry of the block being a real
  number), and the tile entry gains the strip's sum of squared differences scaled by 2⁻¹⁰.
-/
import proofs.«416362_j53412213293096_3_alg».proof.Proof.Gen.KernelIdeal.Skeleton
import proofs.«416362_j53412213293096_3_alg».proof.Proof.Spec
import Idealize.ShloMosaic.PureOps.Ideal.Laws
import Idealize.ShloMosaic.Lib.Pipeline.Value
import Idealize.ShloMosaic.Lib.ValueLayout

noncomputable section

open scoped BigOperators
open Idealize.ShloMosaic Idealize.ShloMosaic.ValueIdx

namespace Cert.KernelIdeal.Payload

open Cert.KernelIdeal Cert.KernelIdeal.Gen Cert.GatherMse

variable [Cert.KernelIdeal.Facts]

/-! ## The one-hot lane vector -/

/-- Two lane numbers below 128 with the same 32-bit word are the same lane. -/
theorem lane_eq_of_word_eq (l k : Fin 128) (h : BitVec.ofNat 32 l.val = BitVec.ofNat 32 k.val) : l = k := by
  apply Fin.ext
  have e := congrArg BitVec.toNat h
  simp only [BitVec.toNat_ofNat] at e
  have := l.isLt
  have := k.isLt
  omega

/-- The word comparison of two lane numbers, widened and converted: 1 on the diagonal, 0 off it. -/
theorem laneTest_value (l k : Fin 128) :
    ((((IntOp.cmpi .eq (BitVec.ofNat 32 l.val) (BitVec.ofNat 32 k.val)).setWidth 32).toInt : ℝ) : EReal)
      = if l = k then (1 : EReal) else 0 := by
  by_cases hlk : l = k
  · subst hlk
    have e : IntOp.cmpi .eq (BitVec.ofNat 32 l.val) (BitVec.ofNat 32 l.val) = 1#1 := by
      simp [IntOp.cmpi]
    have e1 : ((1#1 : BitVec 1).setWidth 32).toInt = 1 := by decide
    rw [if_pos rfl, e, e1]
    norm_num
  · have hne : BitVec.ofNat 32 l.val ≠ BitVec.ofNat 32 k.val := fun h => hlk (lane_eq_of_word_eq l k h)
    have hb : (BitVec.ofNat 32 l.val == BitVec.ofNat 32 k.val) = false := beq_eq_false_iff_ne.2 hne
    have e : IntOp.cmpi .eq (BitVec.ofNat 32 l.val) (BitVec.ofNat 32 k.val) = 0#1 := by
      show BitVec.ofBool (BitVec.ofNat 32 l.val == BitVec.ofNat 32 k.val) = 0#1
      rw [hb]
      rfl
    have e0 : ((0#1 : BitVec 1).setWidth 32).toInt = 0 := by decide
    rw [if_neg hlk, e, e0]
    norm_num

/-- The one-hot vector at lane `l`: 1 at the lane the offset word names, 0 at every other. -/
theorem oneHot_apply (k l : Fin 128) (hi : S1x1x1x128.Iotas .tc 32 [3]) (hlt : 1 < 32) :
    (sitofp .f32 (extui 32 (cmpi .eq (iota .tc S1x1x1x128 32 [3] hi) (broadcast S1x1x1x128 (BitVec.ofNat 32 k.val))) hlt)
        : FVec Ideal S1x1x1x128 .f32) (ix4 (0 : Fin 1) (0 : Fin 1) (0 : Fin 1) l)
      = if l = k then (1 : EReal) else 0 := by
  have hio : iota .tc S1x1x1x128 32 [3] hi (ix4 (0 : Fin 1) (0 : Fin 1) (0 : Fin 1) l) = BitVec.ofNat 32 l.val :=
    iota_single_apply .tc S1x1x1x128 32 3 hi _
  refine Eq.trans ?_ (laneTest_value l k)
  show ((((IntOp.cmpi .eq (iota .tc S1x1x1x128 32 [3] hi (ix4 (0 : Fin 1) (0 : Fin 1) (0 : Fin 1) l))
      (BitVec.ofNat 32 k.val)).setWidth 32).toInt : ℝ) : EReal) = _
  rw [hio]

/-- Real entries times the one-hot vector, summed over the lanes, leave the entry at the hot lane. -/
theorem sum_mul_oneHot (k : Fin 128) (f : Fin 128 → EReal) (hf : ∀ l, ∃ x : ℝ, f l = (x : EReal)) :
    ∑ l : Fin 128, f l * (if l = k then (1 : EReal) else 0) = f k := by
  rw [Finset.sum_eq_single k]
  · rw [if_pos rfl, mul_one]
  · intro l _ hlk
    obtain ⟨x, hx⟩ := hf l
    rw [if_neg hlk, hx, ← EReal.coe_zero, ← EReal.coe_mul, mul_zero]
  · intro h
    exact absurd (Finset.mem_univ k) h

/-! ## The layout operations and reductions of the body, each read at one index -/

/-- The one-hot vector spread over the block reads its own lane. -/
theorem spreadLanes_apply (v : FVec Ideal S1x1x1x128 .f32) (h : S1x1x1x128.Broadcasts S1x64x256x128)
    (r : Fin 64) (w : Fin 256) (l : Fin 128) :
    broadcastTo S1x64x256x128 v h (ix4 (0 : Fin 1) r w l) = v (ix4 (0 : Fin 1) (0 : Fin 1) (0 : Fin 1) l) :=
  broadcastTo_apply v h _ _ fun a => match a with
    | ⟨0, _⟩ => rfl | ⟨1, _⟩ => rfl | ⟨2, _⟩ => rfl | ⟨3, _⟩ => rfl

/-- The sum over the lane axis, at (0, r, w). -/
theorem laneSum_apply (v : FVec Ideal S1x64x256x128 .f32) (h : S1x64x256x128.Reduces [3] S1x64x256)
    (hφ : FKind.Formats .f32) (hacc : (0x00000000#32 : BitVec 32) = FKind.add.neutral .f32 hφ) (r : Fin 64) (w : Fin 256) :
    multiReduction .add [3] S1x64x256 v 0x00000000#32 h hφ hacc (ix3 (0 : Fin 1) r w)
      = ∑ l : Fin 128, v (ix4 (0 : Fin 1) r w l) := by
  refine (Ideal.multiReduction_add_single v _ h hφ hacc _).trans ?_
  refine Finset.sum_congr rfl fun l _ => congrArg v (funext fun c => Fin.ext ?_)
  match c with
  | ⟨0, _⟩ => rfl
  | ⟨1, _⟩ => rfl
  | ⟨2, _⟩ => rfl
  | ⟨3, _⟩ => rfl

/-- The sum over the column axis, at (0, r). -/
theorem colSum_apply (v : FVec Ideal S1x64x256 .f32) (h : S1x64x256.Reduces [2] S1x64)
    (hφ : FKind.Formats .f32) (hacc : (0x00000000#32 : BitVec 32) = FKind.add.neutral .f32 hφ) (r : Fin 64) :
    multiReduction .add [2] S1x64 v 0x00000000#32 h hφ hacc (ix2 (0 : Fin 1) r)
      = ∑ w : Fin 256, v (ix3 (0 : Fin 1) r w) := by
  refine (Ideal.multiReduction_add_single v _ h hφ hacc _).trans ?_
  refine Finset.sum_congr rfl fun w _ => congrArg v (funext fun c => Fin.ext ?_)
  match c with
  | ⟨0, _⟩ => rfl
  | ⟨1, _⟩ => rfl
  | ⟨2, _⟩ => rfl

/-- The row sums given a trailing unit axis read the same row. -/
theorem rowCast_apply (v : FVec Ideal S1x64 .f32) (h : S1x64.ShapeCasts S1x64x1) (r : Fin 64) :
    shapeCast S1x64x1 v h (ix3 (0 : Fin 1) r (0 : Fin 1)) = v (ix2 (0 : Fin 1) r) :=
  shapeCast_apply v h _ _ (by
    rw [Shape.rowMajor_val_three, Shape.rowMajor_val_two]
    show 0 * 64 + r.val = (0 * 64 + r.val) * 1 + 0
    omega)

/-- The sum over the row axis, at (0, 0). -/
theorem rowSum_apply (v : FVec Ideal S1x64x1 .f32) (h : S1x64x1.Reduces [1] S1x1)
    (hφ : FKind.Formats .f32) (hacc : (0x00000000#32 : BitVec 32) = FKind.add.neutral .f32 hφ) :
    multiReduction .add [1] S1x1 v 0x00000000#32 h hφ hacc (ix2 (0 : Fin 1) (0 : Fin 1))
      = ∑ r : Fin 64, v (ix3 (0 : Fin 1) r (0 : Fin 1)) := by
  refine (Ideal.multiReduction_add_single v _ h hφ hacc _).trans ?_
  refine Finset.sum_congr rfl fun r _ => congrArg v (funext fun c => Fin.ext ?_)
  match c with
  | ⟨0, _⟩ => rfl
  | ⟨1, _⟩ => rfl
  | ⟨2, _⟩ => rfl

/-- The strip's one number given a third unit axis is the same number. -/
theorem unitCast_apply (v : FVec Ideal S1x1 .f32) (h : S1x1.ShapeCasts S1x1x1) :
    shapeCast S1x1x1 v h (ix3 (0 : Fin 1) (0 : Fin 1) (0 : Fin 1)) = v (ix2 (0 : Fin 1) (0 : Fin 1)) :=
  shapeCast_apply v h _ _ (by
    rw [Shape.rowMajor_val_three, Shape.rowMajor_val_two]
    rfl)

/-- The strip's one number spread over the tile reads that number at every entry. -/
theorem spreadTile_apply (v : FVec Ideal S1x1x1 .f32) (h : S1x1x1.Broadcasts S1x8x128) (i : Fin 8) (j : Fin 128) :
    broadcastTo S1x8x128 v h (ix3 (0 : Fin 1) i j) = v (ix3 (0 : Fin 1) (0 : Fin 1) (0 : Fin 1)) :=
  broadcastTo_apply v h _ _ fun a => match a with
    | ⟨0, _⟩ => rfl | ⟨1, _⟩ => rfl | ⟨2, _⟩ => rfl

/-! ## The two payloads -/

/-- The reset stores the zero tile. -/
theorem pay1_apply (j : S1x8x128.Idx) : (k0_pay1 (F := Ideal) : Vec Ideal S1x8x128 .f32) j = 0 := by
  unfold k0_pay1
  rw [shapeCast_self]
  exact Ideal.ofBits_zero_f32

/-- The lane the offset word names, picked out of row `r`, column `w` of the block. -/
theorem pickLane_apply (k : Fin 128) (x0 : Vec Ideal S1x64x256x128 .f32) (hx0 : ∀ i, ∃ x : ℝ, x0 i = (x : EReal))
    (hi : S1x1x1x128.Iotas .tc 32 [3]) (hlt : 1 < 32) (hb : S1x1x1x128.Broadcasts S1x64x256x128)
    (hr : S1x64x256x128.Reduces [3] S1x64x256) (hφ : FKind.Formats .f32)
    (hacc : (0x00000000#32 : BitVec 32) = FKind.add.neutral .f32 hφ) (r : Fin 64) (w : Fin 256) :
    multiReduction .add [3] S1x64x256
        (mulf x0 (broadcastTo S1x64x256x128
          (sitofp .f32 (extui 32 (cmpi .eq (iota .tc S1x1x1x128 32 [3] hi)
            (broadcast S1x1x1x128 (BitVec.ofNat 32 k.val))) hlt) : FVec Ideal S1x1x1x128 .f32) hb))
        0x00000000#32 hr hφ hacc (ix3 (0 : Fin 1) r w)
      = x0 (ix4 (0 : Fin 1) r w k) := by
  refine (laneSum_apply _ hr hφ hacc r w).trans ?_
  refine Eq.trans (Finset.sum_congr rfl fun l _ => ?_) (sum_mul_oneHot k (fun l => x0 (ix4 (0 : Fin 1) r w l)) fun l => hx0 _)
  rw [mulf_apply, spreadLanes_apply, oneHot_apply]

/-- One step of the accumulation at tile entry (0, i, j): with the offset word `k < 128` and a block of real
    entries, the entry gains `(∑ r w, (x0[0, r, w, k] − x1[0, r, w])²) · 2⁻¹⁰`. -/
theorem pay2_select (k : Fin 128) (x0 : Vec Ideal S1x64x256x128 .f32) (x1 : Vec Ideal S1x64x256 .f32)
    (acc : Vec Ideal S1x8x128 .f32) (hx0 : ∀ i, ∃ x : ℝ, x0 i = (x : EReal)) (i : Fin 8) (j : Fin 128) :
    k0_pay2 (F := Ideal) (BitVec.ofNat 32 k.val) x0 x1 acc (ix3 (0 : Fin 1) i j)
      = acc (ix3 (0 : Fin 1) i j)
        + (∑ r : Fin 64, ∑ w : Fin 256,
            (x0 (ix4 (0 : Fin 1) r w k) - x1 (ix3 (0 : Fin 1) r w)) * (x0 (ix4 (0 : Fin 1) r w k) - x1 (ix3 (0 : Fin 1) r w)))
          * kscale := by
  unfold k0_pay2
  rw [shapeCast_self, addf_apply, mulf_apply, broadcast_apply, spreadTile_apply, shapeCast_self, unitCast_apply]
  refine congrArg (fun s => acc (ix3 (0 : Fin 1) i j) + s * kscale) ?_
  refine (rowSum_apply _ _ _ _).trans ?_
  refine Finset.sum_congr rfl fun r _ => ?_
  refine (rowCast_apply _ _ r).trans ?_
  refine (colSum_apply _ _ _ _ r).trans ?_
  refine Finset.sum_congr rfl fun w _ => ?_
  rw [mulf_apply, subf_apply]
  exact congrArg (fun a => (a - x1 (ix3 (0 : Fin 1) r w)) * (a - x1 (ix3 (0 : Fin 1) r w)))
    (pickLane_apply k x0 hx0 _ _ _ _ _ _ r w)

end Cert.KernelIdeal.Payload

end
-- ==== Proof.SpecAlgebra.lean ====
/-
  The one law that joins the two arrangements of the loss: over real-valued inputs, writing each batch's scaled
  running value into 2¹⁰ entries and summing every entry gives back the plain sum of the squared differences.
-/
import proofs.«416362_j53412213293096_3_alg».proof.Proof.Spec

noncomputable section

open scoped BigOperators
open Idealize.ShloMosaic Idealize.ShloMosaic.ValueIdx

namespace Cert.GatherMse

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The inclusion of the reals into the extended reals passes through a finite sum. -/
theorem coe_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The scale word denotes the real `2⁻¹⁰`. -/
theorem kscale_eq : kscale = ((1 / 1024 : ℝ) : EReal) := by
  unfold kscale
  simp [Ideal.ofBits, Ideal.ieee, -EReal.coe_mul]
  norm_num

/-- The four strips of 64 rows tile the 256 rows: row `64 h + r` is the pair `(h, r)`. -/
def stripEquiv : Fin 4 × Fin 64 ≃ Fin 256 where
  toFun p := stripRow p.1 p.2
  invFun r := (⟨r.val / 64, by have := r.isLt; omega⟩, ⟨r.val % 64, Nat.mod_lt _ (by decide)⟩)
  left_inv p := by
    obtain ⟨h, r⟩ := p
    have := h.isLt
    have := r.isLt
    apply Prod.ext <;> apply Fin.ext <;> simp only [stripRow] <;> omega
  right_inv r := by
    apply Fin.ext
    simp only [stripRow]
    omega

/-- A sum over the 256 rows is the sum over the strips of the sums over each strip's rows. -/
theorem sum_rows {M : Type*} [AddCommMonoid M] (g : Fin 256 → M) :
    ∑ r : Fin 256, g r = ∑ h : Fin 4, ∑ r : Fin 64, g (stripRow h r) := by
  rw [← Equiv.sum_comp stripEquiv g, Fintype.sum_prod_type]
  rfl

/-- Summing every entry of the output tiles, each entry its batch's running value, is the total — when every
    input entry is a real number. -/
theorem total_of_accum (rec : SRec.Idx → EReal) (inp : SInp.Idx → EReal) (s : Fin 16 → Fin 256)
    (hrec : ∀ i, ∃ x : ℝ, rec i = (x : EReal)) (hinp : ∀ i, ∃ x : ℝ, inp i = (x : EReal)) :
    ∑ j : SOut.Idx, accum rec inp s (j 0) = total rec inp s := by
  -- real witnesses of the inputs, and the squared difference as a real number
  choose R hR using hrec
  choose I hI using hinp
  let D : Fin 16 → Fin 256 → Fin 256 → ℝ := fun b r w =>
    (R (ix4 b r w (s b)) - I (ix3 b r w)) * (R (ix4 b r w (s b)) - I (ix3 b r w))
  have hsq : ∀ b r w, sqAt rec inp s b r w = ((D b r w : ℝ) : EReal) := by
    intro b r w
    show (rec _ - inp _) * (rec _ - inp _) = _
    rw [hR, hI, ← EReal.coe_sub, ← EReal.coe_mul]
  -- a strip sum is the inclusion of the real strip sum
  let P : Fin 16 → Fin 4 → ℝ := fun b h => ∑ r : Fin 64, ∑ w : Fin 256, D b (stripRow h r) w
  have hpart : ∀ b h, part rec inp s b h = ((P b h : ℝ) : EReal) := by
    intro b h
    show ∑ r : Fin 64, ∑ w : Fin 256, sqAt rec inp s b (stripRow h r) w = _
    rw [coe_sum]
    refine Finset.sum_congr rfl fun r _ => ?_
    rw [coe_sum]
    exact Finset.sum_congr rfl fun w _ => hsq b _ w
  -- the running value is the real strip sums added up and divided by 2¹⁰
  have hacc : ∀ b, accum rec inp s b = (((P b 0 + P b 1 + P b 2 + P b 3) / 1024 : ℝ) : EReal) := by
    intro b
    unfold accum
    rw [hpart, hpart, hpart, hpart, kscale_eq, zero_add, ← EReal.coe_mul, ← EReal.coe_mul, ← EReal.coe_mul,
      ← EReal.coe_mul, ← EReal.coe_add, ← EReal.coe_add, ← EReal.coe_add]
    congr 1
    ring
  have htot : total rec inp s = ((∑ b : Fin 16, ∑ r : Fin 256, ∑ w : Fin 256, D b r w : ℝ) : EReal) := by
    unfold total
    rw [coe_sum]; refine Finset.sum_congr rfl fun b _ => ?_
    rw [coe_sum]; refine Finset.sum_congr rfl fun r _ => ?_
    rw [coe_sum]; exact Finset.sum_congr rfl fun w _ => hsq b r w
  -- 2¹⁰ copies of `x / 2¹⁰` add up to `x`
  have hcopies : ∀ x : ℝ, ∑ _i : Fin 8, ∑ _j : Fin 128, x / 1024 = x := by
    intro x
    simp only [Finset.sum_const, Finset.card_univ, Fintype.card_fin, nsmul_eq_mul]
    ring
  rw [sum_idx3 (fun j : SOut.Idx => accum rec inp s (j 0)), htot, coe_sum]
  refine Finset.sum_congr rfl fun b _ => ?_
  show ∑ _i : Fin 8, ∑ _j : Fin 128, accum rec inp s b = _
  rw [hacc b]
  simp only [← coe_sum]
  congr 1
  rw [hcopies, sum_rows (fun r => ∑ w : Fin 256, D b r w), Fin.sum_univ_four]

end Cert.GatherMse

end
-- ==== Proof.KIdeal.lean ====
/-
  The running tile evaluated over the extended reals. With the depth word of batch b encoding k < 256 the lane
  table holds k % 128 and the half table k / 128, so the volume's block at point 4 b + h is
  rec[b, 64 h + r, w, 128 (k / 128) + l] and its lane k % 128 is depth k; the image's block is inp[b, 64 h + r, w].
  One step therefore adds strip h's scaled sum of squared differences, and after the fourth strip every entry of the
  batch's tile is the batch's accumulated value.
-/
import proofs.«416362_j53412213293096_3_alg».proof.Proof.KFinal
import proofs.«416362_j53412213293096_3_alg».proof.Proof.Payload
import proofs.«416362_j53412213293096_3_alg».proof.Proof.TablesIdeal
import proofs.«416362_j53412213293096_3_alg».proof.Proof.SpecAlgebra

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.GatherMse

variable (m : (ℓ : Loc nD τ sig) → Buf (Elt Ideal) ℓ)

/-- The lane table is read at the point's batch. -/
theorem off_val : ∀ t : Fin grid0.N, k0_off1 (grid0.coords t) 0 = t.val / 4 :=
  (by decide +kernel : ∀ t : Fin grid0.N, k0_off1 (grid0.coords t) 0 = t.val / 4)

/-- The volume window's block index at point `t` on its first three axes: batch, strip, 0. -/
theorem rec_index (pf : pre0.Contents (Elt Ideal)) : ∀ t : Fin grid0.N,
    cc0_transform_0 k0_off1_inb numel1_S1 pf (grid0.coords t) 0 = t.val / 4
    ∧ cc0_transform_0 k0_off1_inb numel1_S1 pf (grid0.coords t) 1 = t.val % 4
    ∧ cc0_transform_0 k0_off1_inb numel1_S1 pf (grid0.coords t) 2 = 0 := by
  intro t
  have h := coords_val t
  have h0 : (grid0.coords t 0).val < 16 := (grid0.coords t 0).isLt
  have h1 : (grid0.coords t 1).val < 4 := (grid0.coords t 1).isLt
  refine ⟨?_, ?_, rfl⟩
  · show (BitVec.ofNat 32 (grid0.coords t 0).val).toNat = _
    rw [BitVec.toNat_ofNat, h.1]; omega
  · show (BitVec.ofNat 32 (grid0.coords t 1).val).toNat = _
    rw [BitVec.toNat_ofNat, h.2]; omega

/-- The image window's block index at point `t`: batch, strip, 0. -/
theorem inp_index : ∀ t : Fin grid0.N, cc0_transform_1 (grid0.coords t) 0 = t.val / 4
    ∧ cc0_transform_1 (grid0.coords t) 1 = t.val % 4 ∧ cc0_transform_1 (grid0.coords t) 2 = 0 :=
  (by decide +kernel : ∀ t : Fin grid0.N, cc0_transform_1 (grid0.coords t) 0 = t.val / 4
    ∧ cc0_transform_1 (grid0.coords t) 1 = t.val % 4 ∧ cc0_transform_1 (grid0.coords t) 2 = 0)

/-- The batch of point `t`. -/
def batchOf (hO : Ok m) (t : Fin (cfgM m hO).N) : Fin 16 :=
  ⟨t.val / 4, by have : t.val < 64 := lt_of_lt_of_eq t.isLt (show (cfgM m hO).N = 64 from N_0); omega⟩

/-- The lane word a point reads is the lane table's entry at the point's batch. -/
theorem lane_eq (hO : Ok m) (c : Dev nD) (t : Fin (cfgM m hO).N) :
    laneOf m c hO t = tbl m 1 (ix1 (batchOf m hO t)) := by
  unfold laneOf laneAt
  have e : ((Rect.unit (s := S16) (k0_off1 (grid0.coords t)) S1.size (k0_off1_inb (grid0.coords t))).emb
      (Shape.Idx.first (numel1_S1.symm ▸ Nat.one_pos)) : S16.Idx) = ix1 (batchOf m hO t) := by
    funext a
    match a with
    | ⟨0, _⟩ => exact Fin.ext (by show k0_off1 (grid0.coords t) 0 + 1 * 0 = t.val / 4; rw [off_val t]; omega)
  exact congrArg (tbl m 1) e

/-- The volume window's block index on the depth axis: the half table's word at the point's batch. -/
theorem rec_index3 (hO : Ok m) (t : Fin (cfgM m hO).N) :
    cc0_transform_0 k0_off1_inb numel1_S1 (tbl m) (grid0.coords t) 3 = (tbl m 0 (ix1 (batchOf m hO t))).toNat := by
  have e : ((Rect.unit (s := S16) (k0_off1 (grid0.coords t)) S1.size (k0_off1_inb (grid0.coords t))).emb
      (Shape.Idx.first (numel1_S1.symm ▸ Nat.one_pos)) : S16.Idx) = ix1 (batchOf m hO t) := by
    funext a
    match a with
    | ⟨0, _⟩ => exact Fin.ext (by show k0_off1 (grid0.coords t) 0 + 1 * 0 = t.val / 4; rw [off_val t]; omega)
  exact congrArg (fun x => (tbl m 0 x).toNat) e

/-- Where the volume window's block at point `t` sits in the volume, for ANY admissible contents of the tables:
    batch `t / 4`, rows from `64 (t % 4)`, all columns, depths from `128 · half` where `half` is the block index the
    tables give on the depth axis. -/
theorem rec_emb (a : (pcfg0 (F := Ideal)).Adm) (t : Fin (cfg0 a).N) (half : ℕ)
    (hh : cc0_transform_0 k0_off1_inb numel1_S1 a.1 (grid0.coords t) 3 = half) (hle : half ≤ 1)
    (r : Fin 64) (w : Fin 256) (l : Fin 128) :
    ((((cfg0 a).win 0).blk t).view.emb (ix4 (0 : Fin 1) r w l) : S16x256x256x256.Idx)
      = ix4 (⟨t.val / 4, by have : t.val < 64 := lt_of_lt_of_eq t.isLt (show (cfg0 a).N = 64 from N_0); omega⟩ : Fin 16)
          (⟨64 * (t.val % 4) + r.val, by have := r.isLt; omega⟩ : Fin 256) w
          (⟨128 * half + l.val, by have := l.isLt; omega⟩ : Fin 256) := by
  have hi := rec_index a.1 t
  funext x
  apply Fin.ext
  match x with
  | ⟨0, _⟩ =>
    show cc0_transform_0 k0_off1_inb numel1_S1 a.1 (grid0.coords t) 0 * 1 + 1 * 0 = t.val / 4
    rw [hi.1]; omega
  | ⟨1, _⟩ =>
    show cc0_transform_0 k0_off1_inb numel1_S1 a.1 (grid0.coords t) 1 * 64 + 1 * r.val = 64 * (t.val % 4) + r.val
    rw [hi.2.1]; omega
  | ⟨2, _⟩ =>
    show cc0_transform_0 k0_off1_inb numel1_S1 a.1 (grid0.coords t) 2 * 256 + 1 * w.val = w.val
    rw [hi.2.2]; omega
  | ⟨3, _⟩ =>
    show cc0_transform_0 k0_off1_inb numel1_S1 a.1 (grid0.coords t) 3 * 128 + 1 * l.val = 128 * half + l.val
    rw [hh]; omega

/-- The volume's block at point `t`, entry by entry: batch `t / 4`, row `64 (t % 4) + r`, column `w`, and depth
    `128 · half + l` where `half` is the half table's word at the batch. -/
theorem rec_read (hO : Ok m) (c : Dev nD) (t : Fin (cfgM m hO).N) (half : ℕ)
    (hhalf : (tbl m 0 (ix1 (batchOf m hO t))).toNat = half) (hle : half ≤ 1) (r : Fin 64) (w : Fin 256) (l : Fin 128) :
    recBlk m hO c t (ix4 (0 : Fin 1) r w l)
      = m ((c : Thread nD τ).loc main_arg0)
          (ix4 (batchOf m hO t) (⟨64 * (t.val % 4) + r.val, by have := r.isLt; omega⟩ : Fin 256) w
            (⟨128 * half + l.val, by have := l.isLt; omega⟩ : Fin 256)) := by
  unfold recBlk iblk
  refine (View.read_apply _ _).trans ?_
  show V m c main_arg0 _ = _
  refine (congrFun (V_main_arg0 m c) _).trans ?_
  exact congrArg (m ((c : Thread nD τ).loc main_arg0))
    (rec_emb (adm m hO) t half ((rec_index3 m hO t).trans hhalf) hle r w l)

/-- The image's block at point `t`, entry by entry: batch `t / 4`, row `64 (t % 4) + r`, column `w`. -/
theorem inp_read (hO : Ok m) (c : Dev nD) (t : Fin (cfgM m hO).N) (r : Fin 64) (w : Fin 256) :
    inpBlk m hO c t (ix3 (0 : Fin 1) r w)
      = m ((c : Thread nD τ).loc main_arg1)
          (ix3 (batchOf m hO t) (⟨64 * (t.val % 4) + r.val, by have := r.isLt; omega⟩ : Fin 256) w) := by
  unfold inpBlk iblk
  refine (View.read_apply _ _).trans ?_
  show V m c main_arg1 _ = _
  refine (congrFun (V_main_arg1 m c) _).trans ?_
  have hi := inp_index t
  refine congrArg (m ((c : Thread nD τ).loc main_arg1)) (funext fun a => Fin.ext ?_)
  match a with
  | ⟨0, _⟩ =>
    show cc0_transform_1 (grid0.coords t) 0 * 1 + 1 * 0 = t.val / 4
    rw [hi.1]; omega
  | ⟨1, _⟩ =>
    show cc0_transform_1 (grid0.coords t) 1 * 64 + 1 * r.val = 64 * (t.val % 4) + r.val
    rw [hi.2.1]; omega
  | ⟨2, _⟩ =>
    show cc0_transform_1 (grid0.coords t) 2 * 256 + 1 * w.val = w.val
    rw [hi.2.2]; omega

/-! ## One step, and the running value, as numbers -/

/-- The launch contents of the volume, the image and the depth words (the program runs on one device). -/
abbrev recArr : FVec Ideal S16x256x256x256 .f32 := m (((0 : Dev nD) : Thread nD τ).loc main_arg0)
abbrev inpArr : FVec Ideal S16x256x256 .f32 := m (((0 : Dev nD) : Thread nD τ).loc main_arg1)
abbrev selArr : IVec S16 32 := m (((0 : Dev nD) : Thread nD τ).loc main_arg2)

/-- Strip `h` of batch `b`, the two given as natural numbers folded into their ranges. -/
def partN (b h : ℕ) : EReal :=
  part (recArr m) (inpArr m) (sel (selArr m)) ⟨b % 16, Nat.mod_lt _ (by decide)⟩ ⟨h % 4, Nat.mod_lt _ (by decide)⟩

/-- Batch `b`'s running value after strip `h`. -/
def pacc (b : ℕ) : ℕ → EReal
  | 0 => 0 + partN m b 0 * kscale
  | h + 1 => pacc b h + partN m b (h + 1) * kscale

variable (hidx : ∀ b : Fin 16, ∃ k : Fin 256, selArr m (ix1 b) = BitVec.ofNat 32 k.val)
variable (hrec : ∀ i, ∃ x : ℝ, recArr m i = (x : EReal))

include hidx hrec in
/-- One step at a tile entry: the entry gains the point's strip sum, scaled. -/
theorem stepAt_apply (hO : Ok m) (t : Fin (cfgM m hO).N) (acc : Vec Ideal S1x8x128 .f32) (i : Fin 8) (j : Fin 128) :
    stepAt m hO 0 t acc (ix3 (0 : Fin 1) i j)
      = acc (ix3 (0 : Fin 1) i j) + partN m (t.val / 4) (t.val % 4) * kscale := by
  have hN : t.val < 64 := lt_of_lt_of_eq t.isLt (show (cfgM m hO).N = 64 from N_0)
  obtain ⟨k, hk⟩ := hidx (batchOf m hO t)
  have hkl : k.val < 256 := k.isLt
  have hlane : laneOf m 0 hO t = BitVec.ofNat 32 (k.val % 128) :=
    (lane_eq m hO 0 t).trans (Tables.tbl1_eq m _ k hk)
  have hhalf : (tbl m 0 (ix1 (batchOf m hO t))).toNat = k.val / 128 := by
    rw [Tables.tbl0_eq m _ k hk, BitVec.toNat_ofNat]; omega
  have hle : k.val / 128 ≤ 1 := by omega
  have hx0 : ∀ y, ∃ x : ℝ, recBlk m hO 0 t y = (x : EReal) := by
    intro y
    have hy : y = ix4 (0 : Fin 1) (y 1 : Fin 64) (y 2 : Fin 256) (y 3 : Fin 128) := by
      funext a
      match a with
      | ⟨0, _⟩ => exact Subsingleton.elim (α := Fin 1) _ _
      | ⟨1, _⟩ => rfl
      | ⟨2, _⟩ => rfl
      | ⟨3, _⟩ => rfl
    obtain ⟨r, w, l, rfl⟩ : ∃ (r : Fin 64) (w : Fin 256) (l : Fin 128), y = ix4 (0 : Fin 1) r w l := ⟨y 1, y 2, y 3, hy⟩
    rw [rec_read m hO 0 t (k.val / 128) hhalf hle r w l]
    exact hrec _
  have hstep : stepAt m hO 0 t acc = k0_pay2 (F := Ideal) (BitVec.ofNat 32 (k.val % 128)) (recBlk m hO 0 t) (inpBlk m hO 0 t) acc := by
    unfold stepAt step
    rw [hlane]
  rw [hstep]
  refine (Payload.pay2_select (⟨k.val % 128, Nat.mod_lt _ (by decide)⟩ : Fin 128) (recBlk m hO 0 t) (inpBlk m hO 0 t) acc hx0 i j).trans ?_
  refine congrArg (fun z => acc (ix3 (0 : Fin 1) i j) + z * kscale) ?_
  unfold partN part
  refine Finset.sum_congr rfl fun r _ => Finset.sum_congr rfl fun w _ => ?_
  rw [rec_read m hO 0 t (k.val / 128) hhalf hle r w, inp_read m hO 0 t r w]
  unfold sqAt
  have hb : (⟨t.val / 4 % 16, Nat.mod_lt _ (by decide)⟩ : Fin 16) = batchOf m hO t := Fin.ext (by show t.val / 4 % 16 = t.val / 4; omega)
  have hs : sel (selArr m) (batchOf m hO t) = k := sel_of_eq _ _ k hk
  have hrow : stripRow (⟨t.val % 4 % 4, Nat.mod_lt _ (by decide)⟩ : Fin 4) r
      = (⟨64 * (t.val % 4) + r.val, by have := r.isLt; omega⟩ : Fin 256) := Fin.ext (by show 64 * (t.val % 4 % 4) + r.val = 64 * (t.val % 4) + r.val; omega)
  have hdepth : (⟨128 * (k.val / 128) + k.val % 128, by omega⟩ : Fin 256) = k := Fin.ext (by show 128 * (k.val / 128) + k.val % 128 = k.val; omega)
  rw [hb, hs, hrow]
  simp only [hdepth]

include hidx hrec in
/-- The running tile after point `n`, at any entry, is the running value of the point's batch after its strip. -/
theorem accAt_apply (hO : Ok m) (i : Fin 8) (j : Fin 128) : ∀ (n : ℕ) (h : n < (cfgM m hO).N),
    accAt m hO 0 n h (ix3 (0 : Fin 1) i j) = pacc m (n / 4) (n % 4)
  | 0, h => by
    show stepAt m hO 0 ⟨0, h⟩ zeroTile (ix3 (0 : Fin 1) i j) = _
    rw [stepAt_apply m hidx hrec hO ⟨0, h⟩ zeroTile i j]
    rw [show (zeroTile (F := Ideal)) (ix3 (0 : Fin 1) i j) = 0 from Payload.pay1_apply _]
    rfl
  | n + 1, h => by
    rw [accAt, stepAt_apply m hidx hrec hO ⟨n + 1, h⟩ _ i j]
    by_cases h0 : (n + 1) % 4 = 0
    · rw [if_pos h0, show (zeroTile (F := Ideal)) (ix3 (0 : Fin 1) i j) = 0 from Payload.pay1_apply _]
      show 0 + partN m ((n + 1) / 4) ((n + 1) % 4) * kscale = pacc m ((n + 1) / 4) ((n + 1) % 4)
      rw [h0]; rfl
    · rw [if_neg h0, accAt_apply hO i j n (Nat.lt_of_succ_lt h)]
      show pacc m (n / 4) (n % 4) + partN m ((n + 1) / 4) ((n + 1) % 4) * kscale = pacc m ((n + 1) / 4) ((n + 1) % 4)
      have e1 : (n + 1) / 4 = n / 4 := by omega
      have e2 : (n + 1) % 4 = n % 4 + 1 := by omega
      rw [e1, e2]; rfl

/-- After the fourth strip the running value is the batch's accumulated value. -/
theorem pacc_three (b : Fin 16) : pacc m b.val 3 = accum (recArr m) (inpArr m) (sel (selArr m)) b := by
  have hb : (⟨b.val % 16, Nat.mod_lt _ (by decide)⟩ : Fin 16) = b := Fin.ext (Nat.mod_eq_of_lt b.isLt)
  unfold accum
  simp only [pacc, partN, hb]
  rfl

include hidx hrec in
/-- Every entry of batch `b`'s output tile is the batch's accumulated value. -/
theorem finalOut_apply (hO : Ok m) (idx : S16x8x128.Idx) :
    finalOut m hO 0 idx = accum (recArr m) (inpArr m) (sel (selArr m)) (idx 0) := by
  have h0 : (idx 0).val < 16 := (idx 0).isLt
  unfold finalOut
  rw [accAt_apply m hidx hrec hO (idx 1) (idx 2) (4 * (idx 0).val + 3) _]
  have e1 : (4 * (idx 0).val + 3) / 4 = (idx 0).val := by omega
  have e2 : (4 * (idx 0).val + 3) % 4 = 3 := by omega
  rw [e1, e2]
  exact pacc_three m (idx 0)

/-- The host's sum of the output array from zero, over the extended reals: zero plus the sum of every entry. -/
theorem sum_out (y0 : FVec Ideal S16x8x128 .f32) (q : S_.Idx) :
    Host.reduceAdd (F := Ideal) y0 (constant S_ .f32 0x00000000#32) reducesTo_S16x8x128_S_d0_1_2 h_S_ q
      = (constant (F := Ideal) S_ .f32 0x00000000#32) (Shape.Idx.first h_S_) + ∑ j : S16x8x128.Idx, y0 j := by
  simp only [Host.reduceAdd, Ideal.hostReduceAdd_def]
  exact Ideal.hostReduceAdd_total reducesTo_S16x8x128_S_d0_1_2 (fun b => b.elim0) y0 _ q

/-- The program's result from the sum of the output array's entries. -/
theorem resultOf_of_sum (out : FVec Ideal S16x8x128 .f32) (T : EReal) (h : ∑ j : S16x8x128.Idx, out j = T) :
    resultOf out = Host.divf (F := Ideal) (fun _ => T) (constant S_ .f32 0x49800000#32) := by
  unfold resultOf
  refine congrArg (fun z => Host.divf (F := Ideal) z (constant S_ .f32 0x49800000#32)) (funext fun q => ?_)
  rw [sum_out, h]
  show Ideal.ofBits .f32 0x00000000#32 + T = T
  rw [Ideal.ofBits_zero_f32, zero_add]

include hidx hrec in
/-- The kernel program's result is the loss. -/
theorem result_eq (hinp : ∀ i, ∃ x : ℝ, inpArr m i = (x : EReal)) (hO : Ok m) :
    resultOf (finalOut m hO 0) = loss (recArr m) (inpArr m) (sel (selArr m)) := by
  have hfo : (finalOut m hO 0 : FVec Ideal S16x8x128 .f32)
      = fun j => accum (recArr m) (inpArr m) (sel (selArr m)) (j 0) :=
    funext fun j => finalOut_apply m hidx hrec hO j
  unfold loss
  refine resultOf_of_sum (finalOut m hO 0) (total (recArr m) (inpArr m) (sel (selArr m))) ?_
  rw [hfo]
  exact total_of_accum _ _ _ hrec hinp

end Cert.KernelIdeal.KValue

end
-- ==== Proof.RefValue.lean ====
/-
  The reference's result, read one operation at a time: with every depth word in range the gather reads the volume
  at the selected depth, the in-bounds mask is all ones, and the mean of the squared differences is the loss.
-/
import proofs.«416362_j53412213293096_3_alg».proof.Proof.Gen.ReferenceIdeal.Read
import proofs.«416362_j53412213293096_3_alg».proof.Proof.Spec
import proofs.«416362_j53412213293096_3_alg».proof.Proof.SpecAlgebra
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.GatherMse

/-! ## Words that encode a depth below 256 -/

/-- A depth below 256, written as a 32-bit word and read back as a signed integer, is itself. -/
theorem toInt_toNat_ofNat (k : Fin 256) : (BitVec.ofNat 32 k.val).toInt.toNat = k.val := by
  have hk := k.isLt
  have h1 : (BitVec.ofNat 32 k.val).toInt = (k.val : Int) := by
    rw [BitVec.toInt_eq_toNat_cond, BitVec.toNat_ofNat]
    have : k.val % 2 ^ 32 = k.val := Nat.mod_eq_of_lt (by omega)
    rw [this, if_pos (by omega)]
  rw [h1]; rfl

/-- A depth below 256 is not negative as a signed word … -/
theorem slt_zero (k : Fin 256) : IntOp.cmpi .slt (BitVec.ofNat 32 k.val) 0#32 = 0#1 := by
  revert k; decide
/-- … is at least zero … -/
theorem sge_zero (k : Fin 256) : IntOp.cmpi .sge (BitVec.ofNat 32 k.val) 0#32 = 1#1 := by
  revert k; decide
/-- … and is at most 255. -/
theorem sle_255 (k : Fin 256) : IntOp.cmpi .sle (BitVec.ofNat 32 k.val) 255#32 = 1#1 := by
  revert k; decide

/-! ## A reduction by `and` of all ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and`, from 1, of an array whose every entry is 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_one x hx _

/-! ## The gather, read at one result index -/

/-- The reference's gather: batch on axis 0, rows and columns on axes 1 and 2, the depth on axis 3 collapsed. -/
abbrev depthGather := gather_S16x256x256x256_S16x1x1_S16x256x256x1_12_3_0_0_3_2_12562561

/-- The gather at (b, r, w, 0) reads the volume at (b, r, w, k) when batch b's index word encodes the depth k. -/
theorem gather_depth_apply {α : Type} (x0 : S16x256x256x256.Idx → α) (iv : IVec S16x1x1 32) (b : Fin 16) (r w : Fin 256)
    (k : Fin 256) (hiv : iv (ix3 b 0 0) = BitVec.ofNat 32 k.val) :
    Host.gather depthGather x0 iv (ix4 b r w 0) = x0 (ix4 b r w k) := by
  unfold Host.gather
  congr 1
  funext a
  refine Fin.ext ?_
  show depthGather.start (ix4 b r w 0) iv a + depthGather.batchCoord (ix4 b r w 0) a
    + depthGather.offCoord (ix4 b r w 0) a = _
  match a with
  | ⟨0, _⟩ =>
    -- the batching axis: no start, no offset, the result's batch coordinate
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 4) ∈ depthGather.operandBatchingDims from List.mem_singleton.mpr rfl)]
    rfl
  | ⟨1, _⟩ =>
    -- an offset axis: the result's row
    show depthGather.start (ix4 b r w 0) iv (1 : Fin 4) + depthGather.batchCoord (ix4 b r w 0) (1 : Fin 4)
      + depthGather.offCoord (ix4 b r w 0) (1 : Fin 4) = r.val
    have hs : depthGather.start (ix4 b r w 0) iv (1 : Fin 4) = 0 := by
      unfold GatherDims.start
      rw [dif_neg (show (1 : Fin 4) ∉ depthGather.startIndexMap by decide)]
    rw [hs, GatherDims.batchCoord_eq_zero _ _ _ (show (1 : Fin 4) ∉ depthGather.operandBatchingDims by decide)]
    simp only [Nat.zero_add]
    unfold GatherDims.offCoord
    rw [dif_pos (show (1 : Fin 4) ∈ depthGather.sKept by decide)]
    rfl
  | ⟨2, _⟩ =>
    -- an offset axis: the result's column
    show depthGather.start (ix4 b r w 0) iv (2 : Fin 4) + depthGather.batchCoord (ix4 b r w 0) (2 : Fin 4)
      + depthGather.offCoord (ix4 b r w 0) (2 : Fin 4) = w.val
    have hs : depthGather.start (ix4 b r w 0) iv (2 : Fin 4) = 0 := by
      unfold GatherDims.start
      rw [dif_neg (show (2 : Fin 4) ∉ depthGather.startIndexMap by decide)]
    rw [hs, GatherDims.batchCoord_eq_zero _ _ _ (show (2 : Fin 4) ∉ depthGather.operandBatchingDims by decide)]
    simp only [Nat.zero_add]
    unfold GatherDims.offCoord
    rw [dif_pos (show (2 : Fin 4) ∈ depthGather.sKept by decide)]
    rfl
  | ⟨3, _⟩ =>
    -- the collapsed axis: the index word, read signed and clamped into [0, 255]
    show depthGather.start (ix4 b r w 0) iv (3 : Fin 4) + depthGather.batchCoord (ix4 b r w 0) (3 : Fin 4)
      + depthGather.offCoord (ix4 b r w 0) (3 : Fin 4) = k.val
    rw [GatherDims.batchCoord_eq_zero _ _ _ (show (3 : Fin 4) ∉ depthGather.operandBatchingDims by decide),
      GatherDims.offCoord_eq_zero _ _ _ (show (3 : Fin 4) ∉ depthGather.sKept by decide)]
    simp only [Nat.add_zero]
    unfold GatherDims.start
    rw [dif_pos (show (3 : Fin 4) ∈ depthGather.startIndexMap by decide)]
    have hsi : depthGather.siIdx (ix4 b r w 0) ⟨List.idxOf (3 : Fin 4) depthGather.startIndexMap,
        List.idxOf_lt_length_iff.2 (show (3 : Fin 4) ∈ depthGather.startIndexMap by decide)⟩ = ix3 b 0 0 := by
      funext c; refine Fin.ext ?_
      match c with
      | ⟨0, _⟩ => rfl
      | ⟨1, _⟩ => rfl
      | ⟨2, _⟩ => rfl
    rw [hsi, hiv, toInt_toNat_ofNat]
    have hk := k.isLt
    show min k.val (256 - 1) = k.val
    omega

/-! ## The index word and the in-bounds mask -/

/-- The normalised index word of batch b is the depth its word encodes: it is not negative, so it is kept. -/
theorem index_word (x2 : IVec S16 32) (b : Fin 16) (k : Fin 256) (h : x2 (ix1 b) = BitVec.ofNat 32 k.val) :
    Read.val_main_call0_v5 (F := Ideal) x2 (ix3 b 0 0) = BitVec.ofNat 32 k.val := by
  have hi : Read.idx_main_v0 (Read.idx_main_call0_v5 (ix3 b 0 0 : S16x1x1.Idx)) = ix1 b := by
    funext a
    match a with
    | ⟨0, _⟩ =>
      refine Fin.ext ?_
      show ((((b.val * 1 + 0) * 1 + 0) / 1 * 1 + 0) * 1 + 0) * 1 + 0 = b.val
      omega
  rw [Read.val_main_call0_v5_apply, Read.val_main_call0_v4_apply, Read.val_main_call0_v1_apply,
    Read.val_main_v0_apply, hi, h, Read.val_main_call0_v0_apply, Read.val_main_call0_c_apply, slt_zero, select_zero]

/-- Every entry of the in-bounds test is 1 … -/
theorem inbounds_one (x2 : IVec S16 32) (hidx : ∀ b : Fin 16, ∃ k : Fin 256, x2 (ix1 b) = BitVec.ofNat 32 k.val)
    (i : S16x1x1.Idx) : Read.val_main_call0_v11 (F := Ideal) x2 i = 1#1 := by
  have h1 : (i 1).val < 1 := (i 1).isLt
  have h2 : (i 2).val < 1 := (i 2).isLt
  obtain ⟨a, rfl⟩ : ∃ a : Fin 16, i = ix3 a 0 0 := ⟨i 0, by
    funext c
    match c with
    | ⟨0, _⟩ => rfl
    | ⟨1, _⟩ => exact Fin.ext (by show (i 1).val = 0; omega)
    | ⟨2, _⟩ => exact Fin.ext (by show (i 2).val = 0; omega)⟩
  obtain ⟨k, hk⟩ := hidx a
  rw [Read.val_main_call0_v11_apply, Read.val_main_call0_v7_apply, Read.val_main_call0_v10_apply,
    index_word x2 a k hk, Read.val_main_call0_v6_apply, Read.val_main_call0_c_2_apply,
    Read.val_main_call0_v9_apply, Read.val_main_call0_v8_apply, Read.val_main_call0_c_1_apply, sge_zero, sle_255]
  rfl

/-- … so the mask reduced over the index vector's axis is 1 for every batch. -/
theorem mask_one (x2 : IVec S16 32) (hidx : ∀ b : Fin 16, ∃ k : Fin 256, x2 (ix1 b) = BitVec.ofNat 32 k.val)
    (j : S16x1.Idx) : Read.val_main_call0_v12 (F := Ideal) x2 j = 1#1 := by
  unfold Read.val_main_call0_v12
  exact reduce_andi_one _ _ _ _ (inbounds_one x2 hidx) rfl j

/-! ## The squared difference at one position, and the result -/

/-- The reference's squared difference at (b, r, w) is the specification's at the selected depth. -/
theorem sq_apply (x0 : FVec Ideal S16x256x256x256 .f32) (x1 : FVec Ideal S16x256x256 .f32) (x2 : IVec S16 32)
    (hidx : ∀ b : Fin 16, ∃ k : Fin 256, x2 (ix1 b) = BitVec.ofNat 32 k.val) (b : Fin 16) (r w : Fin 256) :
    Read.val_main_v4 (F := Ideal) x0 x1 x2 (ix3 b r w) = sqAt x0 x1 (sel x2) b r w := by
  obtain ⟨k, hk⟩ := hidx b
  have hb := b.isLt
  have hr := r.isLt
  have hw := w.isLt
  have hj : Read.idx_main_v2 (ix3 b r w : S16x256x256.Idx) = ix4 b r w 0 := by
    funext a
    match a with
    | ⟨0, _⟩ =>
      refine Fin.ext ?_
      show ((b.val * 256 + r.val) * 256 + w.val) / 65536 = b.val
      omega
    | ⟨1, _⟩ =>
      refine Fin.ext ?_
      show ((b.val * 256 + r.val) * 256 + w.val) / 256 % 256 = r.val
      omega
    | ⟨2, _⟩ =>
      refine Fin.ext ?_
      show ((b.val * 256 + r.val) * 256 + w.val) / 1 % 256 = w.val
      omega
    | ⟨3, _⟩ => rfl
  have hm : Read.val_main_call0_v14 (F := Ideal) x2 (ix4 b r w 0) = 1#1 := by
    rw [Read.val_main_call0_v14_apply]
    exact mask_one x2 hidx _
  have hg : Read.val_main_call0_v13 (F := Ideal) x0 x2 (ix4 b r w 0) = x0 (ix4 b r w k) :=
    gather_depth_apply x0 _ b r w k (index_word x2 b k hk)
  rw [Read.val_main_v4_apply, Read.val_main_v3_apply, Read.val_main_v2_apply, hj, Read.val_main_v1_apply, hm, hg,
    select_one]
  unfold sqAt
  rw [sel_of_eq x2 b k hk]
  rfl

/-- With every depth word in range, the reference's result is the loss at the selected depths. -/
theorem ref_value (x0 : FVec Ideal S16x256x256x256 .f32) (x1 : FVec Ideal S16x256x256 .f32) (x2 : IVec S16 32)
    (hidx : ∀ b : Fin 16, ∃ k : Fin 256, x2 (ix1 b) = BitVec.ofNat 32 k.val) :
    Cert.ReferenceIdeal.Read.val_main_v6 (F := Ideal) x0 x1 x2 = loss x0 x1 (sel x2) := by
  have hsum : ∑ j : S16x256x256.Idx, Read.val_main_v4 (F := Ideal) x0 x1 x2 j = total x0 x1 (sel x2) := by
    rw [sum_idx3]
    unfold total
    exact Finset.sum_congr rfl fun b _ => Finset.sum_congr rfl fun r _ => Finset.sum_congr rfl fun w _ =>
      sq_apply x0 x1 x2 hidx b r w
  funext i
  rw [Read.val_main_v6_apply, Read.val_main_v5_apply, hsum, Read.val_main_cst_apply]
  have h0 : (FloatOps.ofBits (F := Ideal) .f32 0x00000000#32 : EReal) = 0 := Ideal.ofBits_zero_f32
  rw [h0, zero_add]
  rfl

end Cert.ReferenceIdeal.RefValue

end
-- ==== Proof.lean ====
/-
  The kernel computes, per batch, the mean squared difference between one depth slice of a volume and an image, and
  the reference computes the same mean with a gather along the depth axis. The depth words are taken in range
  (0 ≤ word < 256) and the float inputs finite.

  The frames. The kernel's blocks of the volume are chosen by a table the host computes from the depth words (the
  clamped word's quotient by 128); in range that quotient is 0 or 1, so every block lies inside the volume, which is
  the side condition the kernel's frame is stated under. The reference has no kernel: its frame is its run.

  The values. Over the extended reals the reference's result is the loss: the total of the squared differences at
  the selected depths over the word of 2²⁰. The kernel's one-hot lane product summed over a block's 128 lanes is
  the block's entry at the lane the table names (the inputs being real numbers), which is the selected depth; its
  accumulator gains each 64-row strip's sum scaled by 2⁻¹⁰, four strips per batch; every entry of a batch's 8 × 128
  output tile holds that accumulated value, and the host's sum of all entries is the total again, because
  2¹⁰ · (x · 2⁻¹⁰) = x on the reals. The idealization rewrote nothing, so `preserves` has nothing to say.
-/
import proofs.«416362_j53412213293096_3_alg».proof.Defs
import proofs.«416362_j53412213293096_3_alg».proof.Proof.Gen.Kernel
import proofs.«416362_j53412213293096_3_alg».proof.Proof.Gen.Kernel.Skeleton
import proofs.«416362_j53412213293096_3_alg».proof.Proof.Gen.Kernel.Launch
import proofs.«416362_j53412213293096_3_alg».proof.Proof.Gen.Kernel.Points
import proofs.«416362_j53412213293096_3_alg».proof.Proof.Gen.Kernel.Frame
import proofs.«416362_j53412213293096_3_alg».proof.Proof.Gen.KernelIdeal
import proofs.«416362_j53412213293096_3_alg».proof.Proof.Gen.KernelIdeal.Skeleton
import proofs.«416362_j53412213293096_3_alg».proof.Proof.Gen.KernelIdeal.Launch
import proofs.«416362_j53412213293096_3_alg».proof.Proof.Gen.KernelIdeal.Points
import proofs.«416362_j53412213293096_3_alg».proof.Proof.Gen.KernelIdeal.Frame
import proofs.«416362_j53412213293096_3_alg».proof.Proof.Gen.ReferenceIdeal
import proofs.«416362_j53412213293096_3_alg».proof.Proof.Gen.Pre_finite_inputs
import proofs.«416362_j53412213293096_3_alg».proof.Proof.Gen.ReferenceIdeal.Run
import proofs.«416362_j53412213293096_3_alg».proof.Proof.Gen.ReferenceIdeal.Read
import proofs.«416362_j53412213293096_3_alg».proof.Proof.PreDecode
import proofs.«416362_j53412213293096_3_alg».proof.Proof.TablesBits
import proofs.«416362_j53412213293096_3_alg».proof.Proof.TablesIdeal
import proofs.«416362_j53412213293096_3_alg».proof.Proof.KIdeal
import proofs.«416362_j53412213293096_3_alg».proof.Proof.RefValue
import Idealize.ShloMosaic.Adequacy
import Idealize.ShloMosaic.Init

noncomputable section

namespace Cert.Proof

open Idealize.ShloMosaic Idealize.ShloMosaic.TcCoe Idealize.SL.Sem Cert.GatherMse

/-- The kernel as printed runs: in range, every block it fetches lies inside the volume. -/
theorem frame_k : Cert.frame_Kernel := fun m ρ hpre =>
  Cert.Kernel.Gen.frame m ρ (Cert.Kernel.Tables.ok_of_idx m (idx_of_pre _ _ _ (hpre 0)))

/-- So does its idealization. -/
theorem frame_ki : Cert.frame_KernelIdeal := fun m ρ hpre =>
  Cert.KernelIdeal.Gen.frame m ρ (Cert.KernelIdeal.Tables.ok_of_idx m (idx_of_pre _ _ _ (hpre 0)))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at the loss of the launch contents. -/
theorem algebraic : Cert.algebraic_KernelIdeal_ReferenceIdeal := by
  intro m ρ m' ρ' hpre hagree
  have hidx := idx_of_pre _ _ _ (hpre 0)
  have hrec := rec_real_of_pre _ _ _ (hpre 0)
  have hinp := inp_real_of_pre _ _ _ (hpre 0)
  have hO : Cert.KernelIdeal.Gen.Ok m := Cert.KernelIdeal.Tables.ok_of_idx m hidx
  refine ⟨fun _ => loss (Cert.KernelIdeal.KValue.recArr m) (Cert.KernelIdeal.KValue.inpArr m)
    (sel (Cert.KernelIdeal.KValue.selArr m)), ?_, ?_⟩
  · refine (θ_run Cert.KernelIdeal.defs _ _).mono (fun _ h c => ?_) (Cert.KernelIdeal.KValue.run_value m ρ hO)
    obtain rfl : c = 0 := Subsingleton.elim _ _
    exact ⟨(h 0).1.trans (Cert.KernelIdeal.KValue.result_eq m hidx hrec hinp hO), (h 0).2⟩
  · refine (θ_run Cert.ReferenceIdeal.defs _ _).mono (fun _ h c => ?_) (Cert.ReferenceIdeal.Value.run (F := Ideal) m' ρ')
    obtain rfl : c = 0 := Subsingleton.elim _ _
    refine ⟨(h 0).1.trans ?_, (h 0).2⟩
    rw [Cert.ReferenceIdeal.Read.val_main_v6_eq, (hagree 0).1, (hagree 0).2.1, (hagree 0).2.2]
    exact Cert.ReferenceIdeal.RefValue.ref_value _ _ _ hidx

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
